-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x128 : Shape := ⟨3, ![64, 8192, 128]⟩
abbrev S_ : Shape := ⟨0, ![]⟩

class Facts : Prop where
  bcast_S_S64x8192x128 : S_.BroadcastsInDim S64x8192x128 (![] : Fin 0 → Fin S64x8192x128.rank)
  reducesTo_S64x8192x128_S_d0_1_2 : S64x8192x128.ReducesTo [0, 1, 2] S_
  h_S_ : 0 < S_.numel

variable [Facts]

def fn {F : FTy → Type} [FloatOps F] (main_arg0 : FVec F S64x8192x128 .f32) : IVec S_ 1 :=
  let main_v0 : FVec F S64x8192x128 .f32 := Host.absf main_arg0
  let main_cst : FVec F S_ .f32 := constant S_ .f32 0x7F800000#32
  let main_v1 : FVec F S64x8192x128 .f32 := broadcastInDim S64x8192x128 ![] bcast_S_S64x8192x128 main_cst
  let main_v2 : IVec S64x8192x128 1 := cmpf .olt main_v0 main_v1
  let main_c : IVec S_ 1 := constantI S_ 1 1#1
  let main_v3 : IVec S_ 1 := (fun x v => Host.reduce IntOp.andi x v reducesTo_S64x8192x128_S_d0_1_2 h_S_) main_v2 main_c
  main_v3
-- ==== Kernel.lean ====
abbrev S64x8192x128 : Shape := ⟨3, ![64, 8192, 128]⟩
abbrev S64x640 : Shape := ⟨2, ![64, 640]⟩
abbrev S8x1024x128 : Shape := ⟨3, ![8, 1024, 128]⟩
abbrev S8x640 : Shape := ⟨2, ![8, 640]⟩
abbrev S8x128 : Shape := ⟨2, ![8, 128]⟩

abbrev nBuf : Space → Nat
  | .hbm => 2
  | .vmem => 8
  | .smem => 0
  | _ => 0

abbrev bufTy : (tb : Table) → Fin (tcTables nBuf tb) → BufTy
  | .hbm, ⟨0, _⟩ => ⟨S64x8192x128, .f32⟩
  | .hbm, ⟨1, _⟩ => ⟨S64x640, .f32⟩
  | .local _ .vmem, ⟨0, _⟩ => ⟨S8x1024x128, .f32⟩
  | .local _ .vmem, ⟨1, _⟩ => ⟨S8x1024x128, .f32⟩
  | .local _ .vmem, ⟨2, _⟩ => ⟨S8x640, .f32⟩
  | .local _ .vmem, ⟨3, _⟩ => ⟨S8x640, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S64x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_22 : BitVec 32 := 0#32
  let v31 : BitVec 1 := Scalar.cmpi .ne v30 c0_i32_22
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1024x128_S8x1024x128_0_0_0 : ∀ a, (![0, 0, 0] : Fin 3 → Nat) a + S8x1024x128.size a ≤ S8x1024x128.size a
  h_S8x1024x128 : 0 < S8x1024x128.numel
  reduces_S8x1024x128_S8x128 : S8x1024x128.Reduces [1] S8x128
  inb_S8x640_S8x128_0_0 : ∀ a, (![0, 0] : Fin 2 → Nat) a + S8x128.size a ≤ S8x640.size a
  inb_S8x640_S8x128_0_128 : ∀ a, (![0, 128] : Fin 2 → Nat) a + S8x128.size a ≤ S8x640.size a
  inb_S8x640_S8x128_0_256 : ∀ a, (![0, 256] : Fin 2 → Nat) a + S8x128.size a ≤ S8x640.size a
  inb_S8x640_S8x128_0_384 : ∀ a, (![0, 384] : Fin 2 → Nat) a + S8x128.size a ≤ S8x640.size a
  inb_S8x640_S8x128_0_512 : ∀ a, (![0, 512] : Fin 2 → Nat) a + S8x128.size a ≤ S8x640.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S64x8192x128.size a
  hwx0_0 : ∀ i : grid0.Coords, EltTy.bits .f32 = 32 ∨ (Rect.block (s := S64x8192x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x640.size a ≤ S64x640.size a
  hwx0_1 : ∀ i : grid0.Coords, EltTy.bits .f32 = 32 ∨ (Rect.block (s := S64x640) S8x640.size (cc0_transform_1 i) (hinb0_1 i)).WholeWords (EltTy.packing .f32)

variable [Facts₀]

abbrev win0_0 : Pipeline.Window sig grid0 :=
  Pipeline.Window.ofSpec (Memref.whole main_arg0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x640.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x8192x128 : Shape := ⟨3, ![64, 8192, 128]⟩
abbrev S_ : Shape := ⟨0, ![]⟩
abbrev S64x128 : Shape := ⟨2, ![64, 128]⟩
abbrev S64x1x128 : Shape := ⟨3, ![64, 1, 128]⟩
abbrev S64x640 : Shape := ⟨2, ![64, 640]⟩

abbrev nBuf : Space → Nat
  | .hbm => 37
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S_, .f32⟩
  | .hbm, ⟨2, _⟩ => ⟨S64x128, .f32⟩
  | .hbm, ⟨3, _⟩ => ⟨S_, .f32⟩
  | .hbm, ⟨4, _⟩ => ⟨S64x128, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S_, .i32⟩
  | .hbm, ⟨13, _⟩ => ⟨S_, .f32⟩
  | .hbm, ⟨14, _⟩ => ⟨S64x128, .f32⟩
  | .hbm, ⟨15, _⟩ => ⟨S64x1x128, .f32⟩
  | .hbm, ⟨16, _⟩ => ⟨S_, .f32⟩
  | .hbm, ⟨17, _⟩ => ⟨S64x1x128, .f32⟩
  | .hbm, ⟨18, _⟩ => ⟨S64x1x128, .f32⟩
  | .hbm, ⟨19, _⟩ => ⟨S64x8192x128, .f32⟩
  | .hbm, ⟨20, _⟩ => ⟨S64x8192x128, .f32⟩
  | .hbm, ⟨21, _⟩ => ⟨S64x8192x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S64x640, .f32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_cst_3 : Ref sig .tc := ⟨.hbm, 29, rfl⟩
abbrev main_call0_call0_v12 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v6 : Ref sig .tc := ⟨.hbm, 35, rfl⟩
abbrev main_v7 : Ref sig .tc := ⟨.hbm, 36, rfl⟩

abbrev nD : Nat := 1
abbrev τ : Topo := Topo.v7x

variable {F : FTy → Type} [FloatOps F]

class Facts₀ : Prop where
  reducesTo_S64x8192x128_S64x128_d1 : S64x8192x128.ReducesTo [1] S64x128
  h_S_ : 0 < S_.numel
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  bcast_S64x1x128_S64x8192x128_0_1_2 : S64x1x128.BroadcastsInDim S64x8192x128 (![0, 1, 2] : Fin 3 → Fin S64x8192x128.rank)
  concatenates_S64x128_S64x128_S64x128_S64x128_S64x128_S64x640_d1 : Shape.Concatenates [S64x128, S64x128, S64x128, S64x128, S64x128] S64x640 1

variable [Facts₀]

class Facts : Prop extends Facts₀ where

variable [Facts]
-- ==== Proof.KerPieces.lean ====
/-
  What one grid point's body leaves in the four accumulators and, at a row's last point, in the output block — each
  as a pure function of the point's input block and of what the accumulators held before.  At a row's first point the
  accumulators are first reset (to 0, 0, -inf, +inf) and the block's lane statistics folded in; at the other points the
  block's statistics are folded into what the point before left; at the last point the output block is then written
  as five side-by-side [8,128] pieces: mean, maximum, minimum, sum, standard deviation, each computed from the
  accumulators just updated.
-/
import proofs.«120007_j57707180589696_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S8x1024x128 .f32) (h2 : a2.IsWhole) (a3 : Memref sig .tc .vmem S8x640 .f32) (h3 : a3.IsWhole)
  (a4 : Memref sig .tc .vmem S8x128 .f32) (h4 : a4.IsWhole) (a5 : Memref sig .tc .vmem S8x128 .f32) (h5 : a5.IsWhole)
  (a6 : Memref sig .tc .vmem S8x128 .f32) (h6 : a6.IsWhole) (a7 : Memref sig .tc .vmem S8x128 .f32) (h7 : a7.IsWhole)

/-! ## First point of a row: reset, then fold the block in -/

section First
variable (hc0 : cond0_0 i) (hc1 : ¬cond0_1 i) (x : Vec F S8x1024x128 .f32)

/-- The running sum: the zero block plus the block's lane sums. -/
theorem sout_A_0 : sout0_A_0 c i a2 h2 a3 h3 a4 h4 a5 h5 a6 h6 a7 h7 hc0 hc1 x = k0_pay7 x k0_pay3 := by
  unfold sout0_A_0
  rw [View.read_writes_eq_canon _ _ _ (scover0_A_0 c i a2 h2 a3 h3 a4 h4 a5 h5 a6 h6 a7 h7 hc0 hc1 x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x1024x128) hz3]

/-- The running sum of squares. -/
theorem sout_A_1 : sout0_A_1 c i a2 h2 a3 h3 a4 h4 a5 h5 a6 h6 a7 h7 hc0 hc1 x = k0_pay8 x k0_pay4 := by
  unfold sout0_A_1
  rw [View.read_writes_eq_canon _ _ _ (scover0_A_1 c i a2 h2 a3 h3 a4 h4 a5 h5 a6 h6 a7 h7 hc0 hc1 x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x1024x128) hz3]

/-- The running maximum, from -inf. -/
theorem sout_A_2 : sout0_A_2 c i a2 h2 a3 h3 a4 h4 a5 h5 a6 h6 a7 h7 hc0 hc1 x = k0_pay9 x k0_pay5 := by
  unfold sout0_A_2
  rw [View.read_writes_eq_canon _ _ _ (scover0_A_2 c i a2 h2 a3 h3 a4 h4 a5 h5 a6 h6 a7 h7 hc0 hc1 x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x1024x128) hz3]

/-- The running minimum, from +inf. -/
theorem sout_A_3 : sout0_A_3 c i a2 h2 a3 h3 a4 h4 a5 h5 a6 h6 a7 h7 hc0 hc1 x = k0_pay10 x k0_pay6 := by
  unfold sout0_A_3
  rw [View.read_writes_eq_canon _ _ _ (scover0_A_3 c i a2 h2 a3 h3 a4 h4 a5 h5 a6 h6 a7 h7 hc0 hc1 x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S8x1024x128) hz3]

end First

/-! ## A middle point: fold the block into what the point before left -/

section Middle
variable (hc0 : ¬cond0_0 i) (hc1 : ¬cond0_1 i) (x : Vec F S8x1024x128 .f32) (s0 s1 s2 s3 : Vec F S8x128 .f32)

theorem sout_B_0 : sout0_B_0 c i a2 h2 a3 h3 a4 h4 a5 h5 a6 h6 a7 h7 hc0 hc1 x s0 s1 s2 s3 = k0_pay7 x s0 := by
  unfold sout0_B_0
  rw [View.read_writes_eq_canon _ _ _ (scover0_B_0 c i a2 h2 a3 h3 a4 h4 a5 h5 a6 h6 a7 h7 hc0 hc1 x s0 s1 s2 s3)]
  unfold kernelRun0_B
  dsimp only
  sl_unfold_words
  rw [View.canon_unit_zero hz]
  simp only [View.readAt_eq_ld, h2.read_unread, h4.read_unread, View.ld_unit_zero (S := S8x128) hz, View.ld_unit_zero (S := S8x1024x128) hz3]

theorem sout_B_1 : sout0_B_1 c i a2 h2 a3 h3 a4 h4 a5 h5 a6 h6 a7 h7 hc0 hc1 x s0 s1 s2 s3 = k0_pay8 x s1 := by
  unfold sout0_B_1
  rw [View.read_writes_eq_canon _ _ _ (scover0_B_1 c i a2 h2 a3 h3 a4 h4 a5 h5 a6 h6 a7 h7 hc0 hc1 x s0 s1 s2 s3)]
  unfold kernelRun0_B
  dsimp only
  sl_unfold_words
  rw [View.canon_unit_zero hz]
  simp only [View.readAt_eq_ld, h2.read_unread, h5.read_unread, View.ld_unit_zero (S := S8x128) hz, View.ld_unit_zero (S := S8x1024x128) hz3]

theorem sout_B_2 : sout0_B_2 c i a2 h2 a3 h3 a4 h4 a5 h5 a6 h6 a7 h7 hc0 hc1 x s0 s1 s2 s3 = k0_pay9 x s2 := by
  unfold sout0_B_2
  rw [View.read_writes_eq_canon _ _ _ (scover0_B_2 c i a2 h2 a3 h3 a4 h4 a5 h5 a6 h6 a7 h7 hc0 hc1 x s0 s1 s2 s3)]
  unfold kernelRun0_B
  dsimp only
  sl_unfold_words
  rw [View.canon_unit_zero hz]
  simp only [View.readAt_eq_ld, h2.read_unread, h6.read_unread, View.ld_unit_zero (S := S8x128) hz, View.ld_unit_zero (S := S8x1024x128) hz3]

theorem sout_B_3 : sout0_B_3 c i a2 h2 a3 h3 a4 h4 a5 h5 a6 h6 a7 h7 hc0 hc1 x s0 s1 s2 s3 = k0_pay10 x s3 := by
  unfold sout0_B_3
  rw [View.read_writes_eq_canon _ _ _ (scover0_B_3 c i a2 h2 a3 h3 a4 h4 a5 h5 a6 h6 a7 h7 hc0 hc1 x s0 s1 s2 s3)]
  unfold kernelRun0_B
  dsimp only
  sl_unfold_words
  rw [View.canon_unit_zero hz]
  simp only [View.readAt_eq_ld, h2.read_unread, h7.read_unread, View.ld_unit_zero (S := S8x128) hz, View.ld_unit_zero (S := S8x1024x128) hz3]

end Middle

/-! ## Last point of a row: fold the block in, then write the five statistics side by side -/

section Last
variable (hc0 : ¬cond0_0 i) (hc1 : cond0_1 i) (x : Vec F S8x1024x128 .f32) (s0 s1 s2 s3 : Vec F S8x128 .f32)

theorem sout_C_0 : sout0_C_0 c i a2 h2 a3 h3 a4 h4 a5 h5 a6 h6 a7 h7 hc0 hc1 x s0 s1 s2 s3 = k0_pay7 x s0 := by
  unfold sout0_C_0
  rw [View.read_writes_eq_canon _ _ _ (scover0_C_0 c i a2 h2 a3 h3 a4 h4 a5 h5 a6 h6 a7 h7 hc0 hc1 x s0 s1 s2 s3)]
  unfold kernelRun0_C
  dsimp only
  sl_unfold_words
  rw [View.canon_unit_zero hz]
  simp only [View.readAt_eq_ld, h2.read_unread, h4.read_unread, View.ld_unit_zero (S := S8x128) hz, View.ld_unit_zero (S := S8x1024x128) hz3]

theorem sout_C_1 : sout0_C_1 c i a2 h2 a3 h3 a4 h4 a5 h5 a6 h6 a7 h7 hc0 hc1 x s0 s1 s2 s3 = k0_pay8 x s1 := by
  unfold sout0_C_1
  rw [View.read_writes_eq_canon _ _ _ (scover0_C_1 c i a2 h2 a3 h3 a4 h4 a5 h5 a6 h6 a7 h7 hc0 hc1 x s0 s1 s2 s3)]
  unfold kernelRun0_C
  dsimp only
  sl_unfold_words
  rw [View.canon_unit_zero hz]
  simp only [View.readAt_eq_ld, h2.read_unread, h5.read_unread, View.ld_unit_zero (S := S8x128) hz, View.ld_unit_zero (S := S8x1024x128) hz3]

theorem sout_C_2 : sout0_C_2 c i a2 h2 a3 h3 a4 h4 a5 h5 a6 h6 a7 h7 hc0 hc1 x s0 s1 s2 s3 = k0_pay9 x s2 := by
  unfold sout0_C_2
  rw [View.read_writes_eq_canon _ _ _ (scover0_C_2 c i a2 h2 a3 h3 a4 h4 a5 h5 a6 h6 a7 h7 hc0 hc1 x s0 s1 s2 s3)]
  unfold kernelRun0_C
  dsimp only
  sl_unfold_words
  rw [View.canon_unit_zero hz]
  simp only [View.readAt_eq_ld, h2.read_unread, h6.read_unread, View.ld_unit_zero (S := S8x128) hz, View.ld_unit_zero (S := S8x1024x128) hz3]

theorem sout_C_3 : sout0_C_3 c i a2 h2 a3 h3 a4 h4 a5 h5 a6 h6 a7 h7 hc0 hc1 x s0 s1 s2 s3 = k0_pay10 x s3 := by
  unfold sout0_C_3
  rw [View.read_writes_eq_canon _ _ _ (scover0_C_3 c i a2 h2 a3 h3 a4 h4 a5 h5 a6 h6 a7 h7 hc0 hc1 x s0 s1 s2 s3)]
  unfold kernelRun0_C
  dsimp only
  sl_unfold_words
  rw [View.canon_unit_zero hz]
  simp only [View.readAt_eq_ld, h2.read_unread, h7.read_unread, View.ld_unit_zero (S := S8x128) hz, View.ld_unit_zero (S := S8x1024x128) hz3]

/-- The output block after a row's last point: the five pieces, last store first, each over the accumulators as the
    point has just updated them. -/
theorem out_C_1 :
    out0_C_1 c i a2 h2 a3 h3 a4 h4 a5 h5 a6 h6 a7 h7 hc0 hc1 x s0 s1 s2 s3
      = View.canon ([⟨Rect.unit ![0, 512] ![8, 128] inb_S8x640_S8x128_0_512, k0_pay2 (k0_pay7 x s0) (k0_pay8 x s1)⟩,
          ⟨Rect.unit ![0, 384] ![8, 128] inb_S8x640_S8x128_0_384, k0_pay7 x s0⟩,
          ⟨Rect.unit ![0, 256] ![8, 128] inb_S8x640_S8x128_0_256, k0_pay10 x s3⟩,
          ⟨Rect.unit ![0, 128] ![8, 128] inb_S8x640_S8x128_0_128, k0_pay9 x s2⟩,
          ⟨Rect.unit ![0, 0] ![8, 128] inb_S8x640_S8x128_0_0, k0_pay1 (k0_pay7 x s0)⟩] : List (View.Piece (Elt F) S8x640 .f32)) := by
  unfold out0_C_1
  rw [View.read_writes_eq_canon _ _ _ (cover0_C_1 c i a2 h2 a3 h3 a4 h4 a5 h5 a6 h6 a7 h7 hc0 hc1 x s0 s1 s2 s3)]
  unfold kernelRun0_C
  dsimp only
  sl_unfold_words
  simp only [View.readCov_unit_zero (S := S8x128) _ hz, View.readAt_eq_ld, h2.read_unread, h4.read_unread, h5.read_unread,
    h6.read_unread, h7.read_unread, View.ld_unit_zero (S := S8x128) hz, View.ld_unit_zero (S := S8x1024x128) hz3]

end Last

end Cert.KernelIdeal.Pool

end
-- ==== Proof.Spec.lean ====
/-
  The five pooled statistics of a [64, 8192, 128] array over its middle axis, as functions of the array on the
  extended reals: per (row b, lane d) the sum, the sum of squares, the maximum and the minimum of the 8192 entries
  x(b, ·, d); the mean is the sum times 1/8192 and the population standard deviation the square root of the mean of
  squares minus the squared mean (clamped at zero).  The result array [64, 640] lays the five statistics side by
  side along its second axis: columns 0..127 the mean, 128..255 the maximum, 256..383 the minimum, 384..511 the
  sum, 512..639 the standard deviation.  A second arrangement, the two-pass one (mean first, then the mean of the
  squared deviations), is stated beside it; the two agree on finite inputs (proved elsewhere).
-/
import Idealize.ShloMosaic.PureOps.Ideal
import Idealize.ShloMosaic.Lib.ValueIdx

noncomputable section

open scoped BigOperators

namespace Cert.Pool

open Idealize.ShloMosaic Idealize.ShloMosaic.ValueIdx

/-- The input's shape and the result's. -/
abbrev SIn : Shape := ⟨3, ![64, 8192, 128]⟩
abbrev SOut : Shape := ⟨2, ![64, 640]⟩

/-- The 8192 entries of row `b`, lane `d`. -/
def col (x : SIn.Idx → EReal) (b : Fin 64) (d : Fin 128) : Fin 8192 → EReal := fun k => x (ix3 b k d)

/-- Their sum, sum of squares, maximum and minimum. -/
def colSum (x : SIn.Idx → EReal) (b : Fin 64) (d : Fin 128) : EReal := ∑ k : Fin 8192, col x b d k
def colSumSq (x : SIn.Idx → EReal) (b : Fin 64) (d : Fin 128) : EReal := ∑ k : Fin 8192, col x b d k * col x b d k
def colMax (x : SIn.Idx → EReal) (b : Fin 64) (d : Fin 128) : EReal :=
  (Finset.univ : Finset (Fin 8192)).fold max (⊥ : EReal) (col x b d)
def colMin (x : SIn.Idx → EReal) (b : Fin 64) (d : Fin 128) : EReal :=
  (Finset.univ : Finset (Fin 8192)).fold min (⊤ : EReal) (col x b d)

/-- The reciprocal of the count, and the count. -/
def invN : EReal := ((1 / 8192 : ℝ) : EReal)
def cntN : EReal := ((8192 : ℝ) : EReal)

/-- One-pass arrangement: mean = sum · (1/N); std = sqrt (max (sumsq · (1/N) − mean²) 0). -/
def mean (x : SIn.Idx → EReal) (b : Fin 64) (d : Fin 128) : EReal := colSum x b d * invN
def std (x : SIn.Idx → EReal) (b : Fin 64) (d : Fin 128) : EReal :=
  Ideal.sqrt (max (colSumSq x b d * invN - mean x b d * mean x b d) 0)

/-- Two-pass arrangement: mean = sum / N; std = sqrt ((Σ (x − mean)²) / N). -/
def mean2 (x : SIn.Idx → EReal) (b : Fin 64) (d : Fin 128) : EReal := Ideal.div (colSum x b d) cntN
def std2 (x : SIn.Idx → EReal) (b : Fin 64) (d : Fin 128) : EReal :=
  Ideal.sqrt (Ideal.div (∑ k : Fin 8192, (col x b d k - mean2 x b d) * (col x b d k - mean2 x b d)) cntN)

/-- The lane of a result column. -/
def lane (c : Fin 640) : Fin 128 := ⟨c.val % 128, Nat.mod_lt _ (by norm_num)⟩

/-- The result at (row, column), one-pass arrangement. -/
def outAt (x : SIn.Idx → EReal) (b : Fin 64) (c : Fin 640) : EReal :=
  if c.val < 128 then mean x b (lane c)
  else if c.val < 256 then colMax x b (lane c)
  else if c.val < 384 then colMin x b (lane c)
  else if c.val < 512 then colSum x b (lane c)
  else std x b (lane c)

/-- The result at (row, column), two-pass arrangement. -/
def outAt2 (x : SIn.Idx → EReal) (b : Fin 64) (c : Fin 640) : EReal :=
  if c.val < 128 then mean2 x b (lane c)
  else if c.val < 256 then colMax x b (lane c)
  else if c.val < 384 then colMin x b (lane c)
  else if c.val < 512 then colSum x b (lane c)
  else std2 x b (lane c)

/-- The result arrays. -/
def out (x : SIn.Idx → EReal) : SOut.Idx → EReal := fun j => outAt x (j 0) (j 1)
def out2 (x : SIn.Idx → EReal) : SOut.Idx → EReal := fun j => outAt2 x (j 0) (j 1)

/-- Every entry is a real number. -/
def Finite (x : SIn.Idx → EReal) : Prop := ∀ i, ∃ r : ℝ, x i = (r : EReal)

/-! ## Accumulating a column 1024 entries at a time -/

/-- Entry `r` of the `n`-th run of 1024 entries. -/
def runIdx (n : ℕ) (hn : n < 8) (r : Fin 1024) : Fin 8192 := ⟨1024 * n + r.val, by have := r.isLt; omega⟩

/-- The entries before the `n`-th run. -/
def firstRuns (n : ℕ) : Finset (Fin 8192) := Finset.univ.filter (fun k => k.val < 1024 * n)

/-- Sum, maximum and minimum of a column's first `n` runs. -/
def partSum (f : Fin 8192 → EReal) (n : ℕ) : EReal := ∑ k ∈ firstRuns n, f k
def partMax (f : Fin 8192 → EReal) (n : ℕ) : EReal := (firstRuns n).fold max (⊥ : EReal) f
def partMin (f : Fin 8192 → EReal) (n : ℕ) : EReal := (firstRuns n).fold min (⊤ : EReal) f

end Cert.Pool

end
-- ==== Proof.Algebra.lean ====
/-
  Pure mathematics on the extended reals for the pooled statistics of a [64, 8192, 128] array.

  Three groups of facts.  (1) A column of 8192 entries accumulated 1024 at a time: the entries before the
  (n+1)-st run are those before the n-th run together with the n-th run itself, the two being disjoint, so a
  sum, a running maximum and a running minimum each advance by the run's own sum / maximum / minimum, start at
  the neutral element and after eight runs cover the whole column.  (2) The four float words the programs
  spell, as the extended reals they denote: 2^-13 = 1/8192, 2^13 = 8192, and the two infinities.  (3) The
  two arrangements of mean and standard deviation agree: dividing by 8192 is multiplying by 1/8192 on all of
  the extended reals, and on real entries the mean of the squared deviations from the mean equals the mean of
  the squares minus the squared mean, a quantity that is nonnegative so that clamping it at zero changes
  nothing.
-/
import proofs.«120007_j57707180589696_1_alg».proof.Proof.Spec
import Idealize.ShloMosaic.PureOps.Ideal
import Idealize.ShloMosaic.PureOps.Ideal.Laws
import Mathlib.Data.Finset.Fold
import Mathlib.Data.EReal.Operations
import Mathlib.Algebra.BigOperators.Group.Finset.Basic
import Mathlib.Algebra.BigOperators.Ring.Finset
import Mathlib.Algebra.Order.BigOperators.Group.Finset
import Mathlib.Tactic.Ring
import Mathlib.Tactic.NormNum

noncomputable section

open scoped BigOperators

namespace Cert.Pool

open Idealize.ShloMosaic Idealize.ShloMosaic.ValueIdx

/-! ## The runs of a column -/

/-- No entry comes before the first run. -/
theorem firstRuns_zero : firstRuns 0 = ∅ := by
  apply Finset.filter_false_of_mem
  intro k _
  simp

/-- A run's entries are distinct. -/
theorem runIdx_injective (n : ℕ) (hn : n < 8) : Function.Injective (runIdx n hn) := by
  intro r s h
  have h' := congrArg Fin.val h
  simp only [runIdx] at h'
  exact Fin.ext (by omega)

/-- The entries before run n+1 are those before run n and run n itself. -/
theorem firstRuns_succ (n : ℕ) (hn : n < 8) :
    firstRuns (n + 1) = firstRuns n ∪ Finset.univ.image (runIdx n hn) := by
  ext k
  simp only [firstRuns, Finset.mem_filter, Finset.mem_univ, true_and, Finset.mem_union, Finset.mem_image]
  constructor
  · intro h
    by_cases hk : k.val < 1024 * n
    · exact Or.inl hk
    · refine Or.inr ⟨⟨k.val - 1024 * n, by omega⟩, Fin.ext ?_⟩
      simp only [runIdx]
      omega
  · rintro (h | ⟨r, hr⟩)
    · omega
    · have := r.isLt
      have h' := congrArg Fin.val hr
      simp only [runIdx] at h'
      omega

/-- Run n lies wholly after the entries before it. -/
theorem firstRuns_disjoint (n : ℕ) (hn : n < 8) :
    Disjoint (firstRuns n) (Finset.univ.image (runIdx n hn)) := by
  rw [Finset.disjoint_left]
  intro k hk hk'
  simp only [firstRuns, Finset.mem_filter, Finset.mem_univ, true_and] at hk
  obtain ⟨r, _, hr⟩ := Finset.mem_image.mp hk'
  have h' := congrArg Fin.val hr
  simp only [runIdx] at h'
  omega

/-- Eight runs are the whole column. -/
theorem firstRuns_eight : firstRuns 8 = Finset.univ := by
  apply Finset.filter_true_of_mem
  intro k _
  have := k.isLt
  omega

/-! ## Sums run by run -/

theorem partSum_zero (f : Fin 8192 → EReal) : partSum f 0 = 0 := by
  rw [partSum, firstRuns_zero, Finset.sum_empty]

theorem partSum_succ (f : Fin 8192 → EReal) (n : ℕ) (hn : n < 8) :
    partSum f (n + 1) = partSum f n + ∑ r : Fin 1024, f (runIdx n hn r) := by
  rw [partSum, partSum, firstRuns_succ n hn, Finset.sum_union (firstRuns_disjoint n hn),
    Finset.sum_image (fun r _ s _ h => runIdx_injective n hn h)]

theorem partSum_eight (f : Fin 8192 → EReal) : partSum f 8 = ∑ k : Fin 8192, f k := by
  rw [partSum, firstRuns_eight]

/-! ## Folds of a commutative, associative operation run by run -/

/-- A fold with a neutral start advances over a run by the run's own fold. -/
theorem fold_firstRuns_succ (op : EReal → EReal → EReal) [Std.Commutative op] [Std.Associative op] (e : EReal)
    (he : ∀ a, op a e = a) (f : Fin 8192 → EReal) (n : ℕ) (hn : n < 8) :
    (firstRuns (n + 1)).fold op e f
      = op ((firstRuns n).fold op e f) ((Finset.univ : Finset (Fin 1024)).fold op e (fun r => f (runIdx n hn r))) := by
  have h := Finset.fold_union_inter (op := op) (f := f) (b₁ := e) (b₂ := e) (s₁ := firstRuns n)
    (s₂ := Finset.univ.image (runIdx n hn))
  rw [Finset.disjoint_iff_inter_eq_empty.mp (firstRuns_disjoint n hn), Finset.fold_empty, he] at h
  rw [firstRuns_succ n hn, h, Finset.fold_image (fun r _ s _ h => runIdx_injective n hn h)]
  rfl

theorem partMax_zero (f : Fin 8192 → EReal) : partMax f 0 = ⊥ := by
  rw [partMax, firstRuns_zero, Finset.fold_empty]

theorem partMax_succ (f : Fin 8192 → EReal) (n : ℕ) (hn : n < 8) :
    partMax f (n + 1) = max (partMax f n)
      ((Finset.univ : Finset (Fin 1024)).fold max (⊥ : EReal) (fun r => f (runIdx n hn r))) :=
  fold_firstRuns_succ max ⊥ (fun a => max_bot_right a) f n hn

theorem partMax_eight (f : Fin 8192 → EReal) :
    partMax f 8 = (Finset.univ : Finset (Fin 8192)).fold max (⊥ : EReal) f := by
  rw [partMax, firstRuns_eight]

theorem partMin_zero (f : Fin 8192 → EReal) : partMin f 0 = ⊤ := by
  rw [partMin, firstRuns_zero, Finset.fold_empty]

theorem partMin_succ (f : Fin 8192 → EReal) (n : ℕ) (hn : n < 8) :
    partMin f (n + 1) = min (partMin f n)
      ((Finset.univ : Finset (Fin 1024)).fold min (⊤ : EReal) (fun r => f (runIdx n hn r))) :=
  fold_firstRuns_succ min ⊤ (fun a => min_top_right a) f n hn

theorem partMin_eight (f : Fin 8192 → EReal) :
    partMin f 8 = (Finset.univ : Finset (Fin 8192)).fold min (⊤ : EReal) f := by
  rw [partMin, firstRuns_eight]

/-! ## The four float words -/

/-- Sign 0, exponent 114, fraction 0: 2^23 · 2^(114 − 127 − 23) = 2^-13. -/
theorem ofBits_invN : Ideal.ofBits .f32 0x39000000#32 = invN := by
  simp [Ideal.ofBits, Ideal.ieee, invN, -EReal.coe_mul]; norm_num

/-- Sign 0, exponent 140, fraction 0: 2^23 · 2^(140 − 127 − 23) = 2^13. -/
theorem ofBits_cntN : Ideal.ofBits .f32 0x46000000#32 = cntN := by
  simp [Ideal.ofBits, Ideal.ieee, cntN, -EReal.coe_mul]; norm_num

/-- Sign 1, exponent all ones, fraction 0. -/
theorem ofBits_negInf : Ideal.ofBits .f32 0xFF800000#32 = (⊥ : EReal) := by
  simp [Ideal.ofBits, Ideal.ieee]

/-- Sign 0, exponent all ones, fraction 0. -/
theorem ofBits_posInf : Ideal.ofBits .f32 0x7F800000#32 = (⊤ : EReal) := by
  simp [Ideal.ofBits, Ideal.ieee]

/-! ## The two arrangements agree -/

/-- Dividing by 8192 is multiplying by 1/8192, at the infinities too. -/
theorem div_cntN (y : EReal) : Ideal.div y cntN = y * invN :=
  Ideal.div_coe (by norm_num) y

theorem mean2_eq_mean (x : SIn.Idx → EReal) (b : Fin 64) (d : Fin 128) : mean2 x b d = mean x b d := by
  rw [mean2, mean, div_cntN]

/-- The inclusion of the reals commutes with finite sums. -/
theorem coe_sum {ι : Type*} (s : Finset ι) (a : ι → ℝ) :
    ((∑ k ∈ s, a k : ℝ) : EReal) = ∑ k ∈ s, (a k : EReal) := by
  classical
  induction s using Finset.induction_on with
  | empty => simp
  | insert i s hi ih => rw [Finset.sum_insert hi, Finset.sum_insert hi, EReal.coe_add, ih]

/-- The population-variance identity over 8192 reals: the mean of the squared deviations from the mean is the
    mean of the squares minus the squared mean. -/
theorem real_variance (a : Fin 8192 → ℝ) (S m : ℝ) (hS : S = ∑ k, a k) (hm : m = S * (1 / 8192)) :
    (∑ k, (a k - m) * (a k - m)) * (1 / 8192) = (∑ k, a k * a k) * (1 / 8192) - m * m := by
  have h1 : ∀ k, (a k - m) * (a k - m) = a k * a k - 2 * m * a k + m * m := fun k => by ring
  simp only [h1, Finset.sum_add_distrib, Finset.sum_sub_distrib, ← Finset.mul_sum, Finset.sum_const,
    Finset.card_univ, Fintype.card_fin, nsmul_eq_mul, ← hS]
  rw [hm]
  push_cast
  ring

/-- A mean of squares is nonnegative. -/
theorem real_variance_nonneg (a : Fin 8192 → ℝ) (m : ℝ) :
    0 ≤ (∑ k, (a k - m) * (a k - m)) * (1 / 8192) :=
  mul_nonneg (Finset.sum_nonneg fun k _ => mul_self_nonneg _) (by norm_num)

/-- The two arrangements of the standard deviation on a column of reals. -/
theorem std_core (c : Fin 8192 → EReal) (a : Fin 8192 → ℝ) (hc : ∀ k, c k = (a k : EReal)) :
    Ideal.sqrt (Ideal.div (∑ k, (c k - Ideal.div (∑ j, c j) cntN) * (c k - Ideal.div (∑ j, c j) cntN)) cntN)
      = Ideal.sqrt (max ((∑ k, c k * c k) * invN - (∑ j, c j) * invN * ((∑ j, c j) * invN)) 0) := by
  have hcf : c = fun k => (a k : EReal) := funext hc
  subst hcf
  obtain ⟨S, hS⟩ : ∃ S : ℝ, S = ∑ k, a k := ⟨_, rfl⟩
  obtain ⟨m, hm⟩ : ∃ m : ℝ, m = S * (1 / 8192) := ⟨_, rfl⟩
  have hsum : (∑ j, (a j : EReal)) = (S : EReal) := by rw [hS, coe_sum]
  have hmean : (S : EReal) * invN = (m : EReal) := by rw [invN, ← EReal.coe_mul, hm]
  have hsq : (∑ k, (a k : EReal) * (a k : EReal)) = ((∑ k, a k * a k : ℝ) : EReal) := by
    rw [coe_sum]; exact Finset.sum_congr rfl fun k _ => (EReal.coe_mul _ _).symm
  have hdev : (∑ k, ((a k : EReal) - (m : EReal)) * ((a k : EReal) - (m : EReal)))
      = ((∑ k, (a k - m) * (a k - m) : ℝ) : EReal) := by
    rw [coe_sum]; exact Finset.sum_congr rfl fun k _ => by rw [EReal.coe_mul, EReal.coe_sub]
  rw [div_cntN, div_cntN, hsum, hmean, hdev, hsq, invN, ← EReal.coe_mul, ← EReal.coe_mul, ← EReal.coe_mul,
    ← EReal.coe_sub, ← real_variance a S m hS hm, max_eq_left]
  exact_mod_cast real_variance_nonneg a m

theorem std2_eq_std (x : SIn.Idx → EReal) (hx : Finite x) (b : Fin 64) (d : Fin 128) :
    std2 x b d = std x b d := by
  choose g hg using hx
  exact std_core (col x b d) (fun k => g (ix3 b k d)) (fun k => hg _)

/-- The two arrangements of a result entry agree. -/
theorem outAt2_eq_outAt (x : SIn.Idx → EReal) (hx : Finite x) (b : Fin 64) (c : Fin 640) :
    outAt2 x b c = outAt x b c := by
  simp only [outAt2, outAt, mean2_eq_mean, std2_eq_std x hx]

theorem out2_eq_out (x : SIn.Idx → EReal) (hx : Finite x) : out2 x = out x :=
  funext fun j => outAt2_eq_outAt x hx (j 0) (j 1)

end Cert.Pool

end
-- ==== Proof.KerPayloads.lean ====
/-
  The kernel body's ten payloads read at one index, at the ideal values.

  The body works on a block x of shape [8, 1024, 128] and on four accumulator blocks of shape [8, 128] (a sum,
  a sum of squares, a maximum, a minimum).  At (b, d): the four initial accumulators are 0, 0, −∞ and +∞; one
  step adds to the accumulator the sum over r of x(b, r, d), resp. of x(b, r, d)², or takes the maximum, resp.
  minimum, of the accumulator and the 1024 entries x(b, ·, d); the final step multiplies the sum by 1/8192 for the
  mean and takes the square root of the mean of squares minus the squared mean, clamped at zero, for the
  standard deviation.  Each shape cast in the body is to the same shape and so the identity; a reduction over the
  middle axis at (b, d) ranges over the indices (b, r, d).
-/
import proofs.«120007_j57707180589696_1_alg».proof.Proof.Gen.KernelIdeal.Skeleton
import proofs.«120007_j57707180589696_1_alg».proof.Proof.Algebra
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pool

open Cert.KernelIdeal Cert.KernelIdeal.Gen Idealize.ShloMosaic Idealize.ShloMosaic.ValueIdx Cert.Pool

/-! ## The reductions over the middle axis -/

/-- The index over (b, d) with r inserted on the middle axis is (b, r, d). -/
theorem lift_ix (b : Fin 8) (d : Fin 128) (r : Fin 1024) :
    reduces_S8x1024x128_S8x128.lift (ix2 b d) r = ix3 b r d := by
  funext c
  match c with
  | ⟨0, _⟩ => exact Fin.ext rfl
  | ⟨1, _⟩ => exact Fin.ext rfl
  | ⟨2, _⟩ => exact Fin.ext rfl

/-- A sum over the middle axis at (b, d). -/
theorem red_add (v : FVec Ideal S8x1024x128 .f32) (b : Fin 8) (d : Fin 128) :
    multiReduction (F := Ideal) .add [1] S8x128 v 0x00000000#32 reduces_S8x1024x128_S8x128 (.inl rfl) rfl (ix2 b d)
      = ∑ r : Fin 1024, v (ix3 b r d) :=
  (Ideal.multiReduction_add_single v _ reduces_S8x1024x128_S8x128 _ _ (ix2 b d)).trans
    (Finset.sum_congr rfl fun r _ => congrArg v (lift_ix b d r))

/-- A maximum over the middle axis at (b, d), from −∞. -/
theorem red_max (v : FVec Ideal S8x1024x128 .f32) (b : Fin 8) (d : Fin 128) :
    multiReduction (F := Ideal) .maximumf [1] S8x128 v 0xFF800000#32 reduces_S8x1024x128_S8x128 (.inl rfl) rfl (ix2 b d)
      = (Finset.univ : Finset (Fin 1024)).fold max (⊥ : EReal) (fun r => v (ix3 b r d)) := by
  refine (Ideal.multiReduction_maximumf_single v _ reduces_S8x1024x128_S8x128 _ _ (ix2 b d)).trans ?_
  rw [Ideal.ofBits_def, ofBits_negInf]
  exact congrArg (Finset.fold max (⊥ : EReal) · Finset.univ) (funext fun r => congrArg v (lift_ix b d r))

/-- A minimum over the middle axis at (b, d), from +∞. -/
theorem red_min (v : FVec Ideal S8x1024x128 .f32) (b : Fin 8) (d : Fin 128) :
    multiReduction (F := Ideal) .minimumf [1] S8x128 v 0x7F800000#32 reduces_S8x1024x128_S8x128 (.inl rfl) rfl (ix2 b d)
      = (Finset.univ : Finset (Fin 1024)).fold min (⊤ : EReal) (fun r => v (ix3 b r d)) := by
  classical
  refine (multiReduction_minimumf_eq_fold v _ reduces_S8x1024x128_S8x128 _ _ (ix2 b d)).trans ?_
  refine (reduces_S8x1024x128_S8x128.fold_filter_drop_single _ _ v (ix2 b d)).trans ?_
  rw [Ideal.ofBits_def, ofBits_posInf]
  exact congrArg (Finset.fold min (⊤ : EReal) · Finset.univ) (funext fun r => congrArg v (lift_ix b d r))

/-! ## The initial accumulators -/

theorem pay3_apply (j : S8x128.Idx) : k0_pay3 (F := Ideal) j = 0 := by
  unfold k0_pay3
  rw [shapeCast_self, broadcast_apply, Ideal.ofBits_def, Ideal.ofBits_zero_f32]

theorem pay4_apply (j : S8x128.Idx) : k0_pay4 (F := Ideal) j = 0 := by
  unfold k0_pay4
  rw [shapeCast_self, broadcast_apply, Ideal.ofBits_def, Ideal.ofBits_zero_f32]

theorem pay5_apply (j : S8x128.Idx) : k0_pay5 (F := Ideal) j = (⊥ : EReal) := by
  unfold k0_pay5
  rw [shapeCast_self, broadcast_apply, Ideal.ofBits_def, ofBits_negInf]

theorem pay6_apply (j : S8x128.Idx) : k0_pay6 (F := Ideal) j = (⊤ : EReal) := by
  unfold k0_pay6
  rw [shapeCast_self, broadcast_apply, Ideal.ofBits_def, ofBits_posInf]

/-! ## One accumulation step -/

theorem pay7_apply (x : Vec Ideal S8x1024x128 .f32) (s : Vec Ideal S8x128 .f32) (b : Fin 8) (d : Fin 128) :
    k0_pay7 x s (ix2 b d) = s (ix2 b d) + ∑ r : Fin 1024, x (ix3 b r d) := by
  unfold k0_pay7
  rw [shapeCast_self, addf_apply, red_add]

theorem pay8_apply (x : Vec Ideal S8x1024x128 .f32) (s : Vec Ideal S8x128 .f32) (b : Fin 8) (d : Fin 128) :
    k0_pay8 x s (ix2 b d) = s (ix2 b d) + ∑ r : Fin 1024, x (ix3 b r d) * x (ix3 b r d) := by
  unfold k0_pay8
  rw [shapeCast_self, addf_apply, red_add]
  rfl

theorem pay9_apply (x : Vec Ideal S8x1024x128 .f32) (s : Vec Ideal S8x128 .f32) (b : Fin 8) (d : Fin 128) :
    k0_pay9 x s (ix2 b d)
      = max (s (ix2 b d)) ((Finset.univ : Finset (Fin 1024)).fold max (⊥ : EReal) (fun r => x (ix3 b r d))) := by
  unfold k0_pay9
  rw [shapeCast_self, maximumf_apply, red_max]

theorem pay10_apply (x : Vec Ideal S8x1024x128 .f32) (s : Vec Ideal S8x128 .f32) (b : Fin 8) (d : Fin 128) :
    k0_pay10 x s (ix2 b d)
      = min (s (ix2 b d)) ((Finset.univ : Finset (Fin 1024)).fold min (⊤ : EReal) (fun r => x (ix3 b r d))) := by
  unfold k0_pay10
  rw [shapeCast_self, minimumf_apply, red_min]

/-! ## The final step -/

theorem pay1_apply (S : Vec Ideal S8x128 .f32) (b : Fin 8) (d : Fin 128) :
    k0_pay1 S (ix2 b d) = S (ix2 b d) * invN := by
  unfold k0_pay1
  rw [mulf_apply, broadcast_apply, Ideal.ofBits_def, ofBits_invN]

theorem pay2_apply (S Q : Vec Ideal S8x128 .f32) (b : Fin 8) (d : Fin 128) :
    k0_pay2 S Q (ix2 b d)
      = Ideal.sqrt (max (Q (ix2 b d) * invN - (S (ix2 b d) * invN) * (S (ix2 b d) * invN)) 0) := by
  unfold k0_pay2
  show Ideal.sqrt _ = _
  rw [maximumf_apply, subf_apply, mulf_apply, mulf_apply, pay1_apply, broadcast_apply, broadcast_apply,
    Ideal.ofBits_def, Ideal.ofBits_def, ofBits_invN, Ideal.ofBits_zero_f32]

end Cert.KernelIdeal.Pool

end
-- ==== Proof.KerBlocks.lean ====
/-
  The kernel's input window at grid point t = 8·i + j is the block of rows 8i … 8i+7, entries 1024j … 1024j+1023
  and all 128 lanes of the [64, 8192, 128] array: read at (b, r, d) it is the array at (8i + b, 1024j + r, d).
-/
import proofs.«120007_j57707180589696_1_alg».proof.Proof.Gen.KernelIdeal.Value
import proofs.«120007_j57707180589696_1_alg».proof.Proof.Spec
import Idealize.ShloMosaic.Lib.Pipeline.Value
import Idealize.ShloMosaic.Lib.ValueIdx

noncomputable section

namespace Cert.KernelIdeal.Pool

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The input array as the kernel finds it. -/
abbrev xarr (c : Dev nD) : Vec F S64x8192x128 .f32 := V m c main_arg0

/-- The input block of grid point `t`. -/
abbrev xblk (c : Dev nD) (t : Fin cfg0.N) : Vec F S8x1024x128 .f32 := iblk m c 0 t

/-- Row `b` of the block of point `t` is row 8·(t / 8) + b of the array. -/
def rowOf (t : Fin cfg0.N) (b : Fin 8) : Fin 64 := ⟨8 * (t.val / 8) + b.val, by have := t.isLt; have hN : cfg0.N = 64 := N_0; omega⟩

/-- Entry `r` of the block of point `t` is entry `r` of the (t % 8)-th run of 1024 entries. -/
def entryOf (t : Fin cfg0.N) (r : Fin 1024) : Fin 8192 := Cert.Pool.runIdx (t.val % 8) (Nat.mod_lt _ (by norm_num)) r

/-- The input window's block index at point `t`: (t / 8, t % 8, 0), decided over the 64 points. -/
theorem index_in : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The block read at (b, r, d) is the array read at (8·(t / 8) + b, 1024·(t % 8) + r, d). -/
theorem xblk_apply (c : Dev nD) (t : Fin cfg0.N) (b : Fin 8) (r : Fin 1024) (d : Fin 128) :
    xblk m c t (ix3 b r d) = xarr m c (ix3 (rowOf t b) (entryOf t r) d) := by
  obtain ⟨e0, e1, e2⟩ := index_in t
  show iblk m c 0 t (ix3 b r d) = V m c main_arg0 (ix3 (rowOf t b) (entryOf t r) d)
  unfold iblk
  rw [View.read_apply]
  show V m c main_arg0 _ = V m c main_arg0 _
  congr 1
  funext a
  apply Fin.ext
  match a with
  | ⟨0, _⟩ => show win0_0.index t (0 : Fin 3) * 8 + 1 * b.val = 8 * (t.val / 8) + b.val; omega
  | ⟨1, _⟩ => show win0_0.index t (1 : Fin 3) * 1024 + 1 * r.val = 1024 * (t.val % 8) + r.val; omega
  | ⟨2, _⟩ => show win0_0.index t (2 : Fin 3) * 128 + 1 * d.val = d.val; omega

end Cert.KernelIdeal.Pool

end
-- ==== Proof.KerCanon.lean ====
/-
  Five stores of [8,128] vectors into an [8,640] block at column offsets 0, 128, 256, 384, 512 leave ONE function of
  the block's (row, column): column q reads the store whose 128-column band holds q, at lane q mod 128.  The five
  bands are disjoint and cover the 640 columns, so the order of the stores does not matter; the list is written
  last store first, as a run of stores is.
-/
import proofs.«120007_j57707180589696_1_alg».proof.KernelIdeal
import proofs.«120007_j57707180589696_1_alg».proof.Proof.Spec
import Idealize.ShloMosaic.Lib.Pipeline.Value
import Idealize.ShloMosaic.Lib.ValueIdx

noncomputable section

namespace Cert.KernelIdeal.Pool

open Cert.KernelIdeal Idealize.ShloMosaic Idealize.ShloMosaic.ValueIdx
open Cert.KernelIdeal.Facts₀

variable {Val : EltTy → Type}

/-- The block at (row b, column q): the band of 128 columns that holds q picks the vector, q mod 128 the lane. -/
def bandAt (w0 w1 w2 w3 w4 : S8x128.Idx → Val .f32) (b : Fin 8) (q : Fin 640) : Val .f32 :=
  if q.val < 128 then w0 (ix2 b (Cert.Pool.lane q)) else if q.val < 256 then w1 (ix2 b (Cert.Pool.lane q))
  else if q.val < 384 then w2 (ix2 b (Cert.Pool.lane q)) else if q.val < 512 then w3 (ix2 b (Cert.Pool.lane q))
  else w4 (ix2 b (Cert.Pool.lane q))

/-- The same as a function of the block's index. -/
def bandFn (w0 w1 w2 w3 w4 : S8x128.Idx → Val .f32) (y : S8x640.Idx) : Val .f32 :=
  bandAt w0 w1 w2 w3 w4 ⟨(y 0).val, idx2_lt0 y⟩ ⟨(y 1).val, idx2_lt1 y⟩

/-- An index of the [8,128] vector is recovered from its row and from its column shifted by a multiple of 128, taken modulo 128. -/
theorem ix2_lane_shift (x : S8x128.Idx) (k : Nat) (b : Fin 8) (q : Fin 640) (hb : b.val = (x 0).val)
    (hq : q.val = 128 * k + (x 1).val) : ix2 b (Cert.Pool.lane q) = x := by
  have h1 : (x 1).val < 128 := idx2_lt1 x
  funext a
  match a with
  | ⟨0, _⟩ => exact Fin.ext hb
  | ⟨1, _⟩ =>
    apply Fin.ext
    show q.val % 128 = (x 1).val
    rw [hq, Nat.mul_add_mod, Nat.mod_eq_of_lt h1]

/-- The band function at the image of a vector index under the store's rectangle at column offset 128·k. -/
theorem bandAt_shift (w0 w1 w2 w3 w4 : S8x128.Idx → Val .f32) (x : S8x128.Idx) (k : Nat) (b : Fin 8) (q : Fin 640)
    (hb : b.val = (x 0).val) (hq : q.val = 128 * k + (x 1).val) :
    bandAt w0 w1 w2 w3 w4 b q
      = if k = 0 then w0 x else if k = 1 then w1 x else if k = 2 then w2 x else if k = 3 then w3 x else w4 x := by
  have h1 : (x 1).val < 128 := idx2_lt1 x
  unfold bandAt
  rw [ix2_lane_shift x k b q hb hq]
  have hk : k < 5 := by have := q.isLt; omega
  interval_cases k <;> (split_ifs <;> first | rfl | contradiction | omega)

/-- The band function at the image of a vector index under the unit-stride rectangle of [8,128] at column offset 128·k. -/
theorem bandFn_emb (w0 w1 w2 w3 w4 : S8x128.Idx → Val .f32) (k : Nat)
    (inb : ∀ a, (![0, 128 * k] : Fin 2 → Nat) a + (![8, 128] : Fin 2 → Nat) a ≤ S8x640.size a) (x : S8x128.Idx) :
    bandFn w0 w1 w2 w3 w4 ((Rect.unit (s := S8x640) ![0, 128 * k] ![8, 128] inb).emb x)
      = if k = 0 then w0 x else if k = 1 then w1 x else if k = 2 then w2 x else if k = 3 then w3 x else w4 x :=
  bandAt_shift w0 w1 w2 w3 w4 x k _ _
    (show 0 + 1 * (x 0).val = (x 0).val by omega) (show 128 * k + 1 * (x 1).val = 128 * k + (x 1).val by omega)

/-- An index whose column lies in the band of 128 columns from 128·k lies in that band's rectangle. -/
theorem mem_band (k : Nat) (inb : ∀ a, (![0, 128 * k] : Fin 2 → Nat) a + (![8, 128] : Fin 2 → Nat) a ≤ S8x640.size a)
    (b : Fin 8) (q : Fin 640) (hlo : 128 * k ≤ q.val) (hhi : q.val < 128 * k + 128) :
    (ix2 b q : S8x640.Idx) ∈ (Rect.unit (s := S8x640) ![0, 128 * k] ![8, 128] inb).set := by
  rw [Rect.mem_set_unit]
  intro a
  match a with
  | ⟨0, _⟩ => exact ⟨Nat.zero_le _, show b.val < 0 + 8 by have := b.isLt; omega⟩
  | ⟨1, _⟩ => exact ⟨hlo, hhi⟩

/-- Five stores of [8,128] vectors at column offsets 0, 128, 256, 384, 512 (last store first) leave, at (row b, column q),
    the vector of q's band at lane q mod 128. -/
theorem canon5_apply [Cert.KernelIdeal.Facts] [∀ e, Nonempty (Val e)] (w0 w1 w2 w3 w4 : S8x128.Idx → Val .f32) (b : Fin 8) (q : Fin 640) :
    View.canon ([⟨Rect.unit ![0, 512] ![8, 128] inb_S8x640_S8x128_0_512, w4⟩,
        ⟨Rect.unit ![0, 384] ![8, 128] inb_S8x640_S8x128_0_384, w3⟩,
        ⟨Rect.unit ![0, 256] ![8, 128] inb_S8x640_S8x128_0_256, w2⟩,
        ⟨Rect.unit ![0, 128] ![8, 128] inb_S8x640_S8x128_0_128, w1⟩,
        ⟨Rect.unit ![0, 0] ![8, 128] inb_S8x640_S8x128_0_0, w0⟩] : List (View.Piece Val S8x640 .f32)) (ix2 b q)
      = if q.val < 128 then w0 (ix2 b (Cert.Pool.lane q)) else if q.val < 256 then w1 (ix2 b (Cert.Pool.lane q))
        else if q.val < 384 then w2 (ix2 b (Cert.Pool.lane q)) else if q.val < 512 then w3 (ix2 b (Cert.Pool.lane q))
        else w4 (ix2 b (Cert.Pool.lane q)) := by
  have key := View.canon_apply_of_pieces (bandFn w0 w1 w2 w3 w4)
    ([⟨Rect.unit ![0, 512] ![8, 128] inb_S8x640_S8x128_0_512, w4⟩,
        ⟨Rect.unit ![0, 384] ![8, 128] inb_S8x640_S8x128_0_384, w3⟩,
        ⟨Rect.unit ![0, 256] ![8, 128] inb_S8x640_S8x128_0_256, w2⟩,
        ⟨Rect.unit ![0, 128] ![8, 128] inb_S8x640_S8x128_0_128, w1⟩,
        ⟨Rect.unit ![0, 0] ![8, 128] inb_S8x640_S8x128_0_0, w0⟩] : List (View.Piece Val S8x640 .f32))
    (by
      intro p hp
      simp only [List.mem_cons, List.mem_nil_iff, or_false] at hp
      rcases hp with rfl | rfl | rfl | rfl | rfl
      · intro x; exact (bandFn_emb w0 w1 w2 w3 w4 4 inb_S8x640_S8x128_0_512 x).symm
      · intro x; exact (bandFn_emb w0 w1 w2 w3 w4 3 inb_S8x640_S8x128_0_384 x).symm
      · intro x; exact (bandFn_emb w0 w1 w2 w3 w4 2 inb_S8x640_S8x128_0_256 x).symm
      · intro x; exact (bandFn_emb w0 w1 w2 w3 w4 1 inb_S8x640_S8x128_0_128 x).symm
      · intro x; exact (bandFn_emb w0 w1 w2 w3 w4 0 inb_S8x640_S8x128_0_0 x).symm)
    (ix2 b q)
    (by
      have hq := q.isLt
      by_cases h1 : q.val < 128
      · exact ⟨(⟨Rect.unit ![0, 0] ![8, 128] inb_S8x640_S8x128_0_0, w0⟩ : View.Piece Val S8x640 .f32),
          List.mem_cons_of_mem _ (List.mem_cons_of_mem _ (List.mem_cons_of_mem _ (List.mem_cons_of_mem _ List.mem_cons_self))),
          mem_band 0 inb_S8x640_S8x128_0_0 b q (by omega) (by omega)⟩
      by_cases h2 : q.val < 256
      · exact ⟨(⟨Rect.unit ![0, 128] ![8, 128] inb_S8x640_S8x128_0_128, w1⟩ : View.Piece Val S8x640 .f32),
          List.mem_cons_of_mem _ (List.mem_cons_of_mem _ (List.mem_cons_of_mem _ List.mem_cons_self)),
          mem_band 1 inb_S8x640_S8x128_0_128 b q (by omega) (by omega)⟩
      by_cases h3 : q.val < 384
      · exact ⟨(⟨Rect.unit ![0, 256] ![8, 128] inb_S8x640_S8x128_0_256, w2⟩ : View.Piece Val S8x640 .f32),
          List.mem_cons_of_mem _ (List.mem_cons_of_mem _ List.mem_cons_self),
          mem_band 2 inb_S8x640_S8x128_0_256 b q (by omega) (by omega)⟩
      by_cases h4 : q.val < 512
      · exact ⟨(⟨Rect.unit ![0, 384] ![8, 128] inb_S8x640_S8x128_0_384, w3⟩ : View.Piece Val S8x640 .f32),
          List.mem_cons_of_mem _ List.mem_cons_self,
          mem_band 3 inb_S8x640_S8x128_0_384 b q (by omega) (by omega)⟩
      · exact ⟨(⟨Rect.unit ![0, 512] ![8, 128] inb_S8x640_S8x128_0_512, w4⟩ : View.Piece Val S8x640 .f32),
          List.mem_cons_self,
          mem_band 4 inb_S8x640_S8x128_0_512 b q (by omega) (by omega)⟩)
  exact key

end Cert.KernelIdeal.Pool
-- ==== Proof.KerInv.lean ====
/-
  The accumulators across a row's eight grid points.  Point t = 8·i + j handles rows 8·i .. 8·i+7 and entries
  1024·j .. 1024·j+1023 of the reduced axis.  After it, at (b, d), the four accumulators hold the sum, the sum of
  squares, the maximum and the minimum of the first j+1 runs of 1024 entries of column (8·i + b, ·, d): at j = 0 the
  reset values (0, 0, -inf, +inf) are the statistics of no entries, and each later point folds its own run into what
  the point before left.  After the row's last point (j = 7) they are the statistics of the whole column, and the
  output block written there holds, side by side, mean, maximum, minimum, sum and standard deviation.
-/
import proofs.«120007_j57707180589696_1_alg».proof.Proof.KerPieces
import proofs.«120007_j57707180589696_1_alg».proof.Proof.KerPayloads
import proofs.«120007_j57707180589696_1_alg».proof.Proof.KerBlocks
import proofs.«120007_j57707180589696_1_alg».proof.Proof.KerCanon
import proofs.«120007_j57707180589696_1_alg».proof.Proof.Algebra

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen Cert.Pool

/-! ## One point's fold, at an index -/

section Step
variable (X : Cert.Pool.SIn.Idx → EReal) (xb : Vec Ideal S8x1024x128 .f32) (s : Vec Ideal S8x128 .f32)
  (b : Fin 8) (d : Fin 128) (p : Fin 64) (k : ℕ) (hk : k < 8)
  (hxb : ∀ r : Fin 1024, xb (ix3 b r d) = X (ix3 p (runIdx k hk r) d))

include hxb

/-- Folding run k's sums into the sum of the runs before it gives the sum of the first k+1 runs. -/
theorem step_sum (hs : s (ix2 b d) = partSum (col X p d) k) :
    k0_pay7 xb s (ix2 b d) = partSum (col X p d) (k + 1) := by
  rw [pay7_apply, hs, partSum_succ _ k hk]
  exact congrArg _ (Finset.sum_congr rfl fun r _ => hxb r)

/-- The same for the squares. -/
theorem step_sumsq (hs : s (ix2 b d) = partSum (fun j => col X p d j * col X p d j) k) :
    k0_pay8 xb s (ix2 b d) = partSum (fun j => col X p d j * col X p d j) (k + 1) := by
  rw [pay8_apply, hs, partSum_succ _ k hk]
  exact congrArg _ (Finset.sum_congr rfl fun r _ => by rw [hxb r]; rfl)

/-- The same for the maximum. -/
theorem step_max (hs : s (ix2 b d) = partMax (col X p d) k) :
    k0_pay9 xb s (ix2 b d) = partMax (col X p d) (k + 1) := by
  rw [pay9_apply, hs, partMax_succ _ k hk]
  have e : (fun r : Fin 1024 => xb (ix3 b r d)) = fun r => col X p d (runIdx k hk r) := funext hxb
  rw [e]

/-- The same for the minimum. -/
theorem step_min (hs : s (ix2 b d) = partMin (col X p d) k) :
    k0_pay10 xb s (ix2 b d) = partMin (col X p d) (k + 1) := by
  rw [pay10_apply, hs, partMin_succ _ k hk]
  have e : (fun r : Fin 1024 => xb (ix3 b r d)) = fun r => col X p d (runIdx k hk r) := funext hxb
  rw [e]

end Step

/-! ## What a point leaves, over what the point before left -/

section AtPoint
variable {F : FTy → Type} [FloatOps F]
variable (m : (ℓ : Loc nD τ sig) → Buf (Elt F) ℓ) (c : Dev nD) (t : Fin cfg0.N)

theorem first_0 (h0 : t.val % 8 = 0) (h1 : ¬t.val % 8 = 7) :
    (outsAt0 m c t.val t.isLt).2.1 = k0_pay7 (xblk m c t) k0_pay3 := by
  rw [outsAt0_A m c t h0 h1]
  exact sout_A_0 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t)

theorem first_1 (h0 : t.val % 8 = 0) (h1 : ¬t.val % 8 = 7) :
    (outsAt0 m c t.val t.isLt).2.2.1 = k0_pay8 (xblk m c t) k0_pay4 := by
  rw [outsAt0_A m c t h0 h1]
  exact sout_A_1 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t)

theorem first_2 (h0 : t.val % 8 = 0) (h1 : ¬t.val % 8 = 7) :
    (outsAt0 m c t.val t.isLt).2.2.2.1 = k0_pay9 (xblk m c t) k0_pay5 := by
  rw [outsAt0_A m c t h0 h1]
  exact sout_A_2 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t)

theorem first_3 (h0 : t.val % 8 = 0) (h1 : ¬t.val % 8 = 7) :
    (outsAt0 m c t.val t.isLt).2.2.2.2 = k0_pay10 (xblk m c t) k0_pay6 := by
  rw [outsAt0_A m c t h0 h1]
  exact sout_A_3 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t)

theorem later_0 (h0 : ¬t.val % 8 = 0) :
    (outsAt0 m c t.val t.isLt).2.1 = k0_pay7 (xblk m c t) (outsAt0 m c (t.val - 1) (Nat.lt_of_le_of_lt (Nat.sub_le _ _) t.isLt)).2.1 := by
  by_cases h1 : t.val % 8 = 7
  · rw [outsAt0_C m c t h0 h1]
    exact sout_C_0 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_0 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_1 (h0 : ¬t.val % 8 = 0) :
    (outsAt0 m c t.val t.isLt).2.2.1 = k0_pay8 (xblk m c t) (outsAt0 m c (t.val - 1) (Nat.lt_of_le_of_lt (Nat.sub_le _ _) t.isLt)).2.2.1 := by
  by_cases h1 : t.val % 8 = 7
  · rw [outsAt0_C m c t h0 h1]
    exact sout_C_1 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_1 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_2 (h0 : ¬t.val % 8 = 0) :
    (outsAt0 m c t.val t.isLt).2.2.2.1 = k0_pay9 (xblk m c t) (outsAt0 m c (t.val - 1) (Nat.lt_of_le_of_lt (Nat.sub_le _ _) t.isLt)).2.2.2.1 := by
  by_cases h1 : t.val % 8 = 7
  · rw [outsAt0_C m c t h0 h1]
    exact sout_C_2 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_2 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_3 (h0 : ¬t.val % 8 = 0) :
    (outsAt0 m c t.val t.isLt).2.2.2.2 = k0_pay10 (xblk m c t) (outsAt0 m c (t.val - 1) (Nat.lt_of_le_of_lt (Nat.sub_le _ _) t.isLt)).2.2.2.2 := by
  by_cases h1 : t.val % 8 = 7
  · rw [outsAt0_C m c t h0 h1]
    exact sout_C_3 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    exact sout_B_3 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The output block a row's last point writes: the five pieces over the accumulators that point leaves. -/
theorem last_out (h0 : ¬t.val % 8 = 0) (h1 : t.val % 8 = 7) :
    (outsAt0 m c t.val t.isLt).1
      = View.canon ([⟨Rect.unit ![0, 512] ![8, 128] inb_S8x640_S8x128_0_512, k0_pay2 (outsAt0 m c t.val t.isLt).2.1 (outsAt0 m c t.val t.isLt).2.2.1⟩,
          ⟨Rect.unit ![0, 384] ![8, 128] inb_S8x640_S8x128_0_384, (outsAt0 m c t.val t.isLt).2.1⟩,
          ⟨Rect.unit ![0, 256] ![8, 128] inb_S8x640_S8x128_0_256, (outsAt0 m c t.val t.isLt).2.2.2.2⟩,
          ⟨Rect.unit ![0, 128] ![8, 128] inb_S8x640_S8x128_0_128, (outsAt0 m c t.val t.isLt).2.2.2.1⟩,
          ⟨Rect.unit ![0, 0] ![8, 128] inb_S8x640_S8x128_0_0, k0_pay1 (outsAt0 m c t.val t.isLt).2.1⟩] : List (View.Piece (Elt F) S8x640 .f32)) := by
  rw [later_0 m c t h0, later_1 m c t h0, later_2 m c t h0, later_3 m c t h0, outsAt0_C m c t h0 h1]
  exact out_C_1 (F := F) c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end AtPoint

/-! ## The invariant -/

variable (m : (ℓ : Loc nD τ sig) → Buf (Elt Ideal) ℓ) (c : Dev nD)

/-- After point n = 8·i + j the accumulators at (b, d) hold the statistics of the first j + 1 runs of column
    (8·i + b, ·, d). -/
theorem inv : ∀ (n : ℕ) (hn : n < cfg0.N) (b : Fin 8) (d : Fin 128) (p : Fin 64), p.val = 8 * (n / 8) + b.val →
    (outsAt0 m c n hn).2.1 (ix2 b d) = partSum (col (xarr m c) p d) (n % 8 + 1)
    ∧ (outsAt0 m c n hn).2.2.1 (ix2 b d) = partSum (fun j => col (xarr m c) p d j * col (xarr m c) p d j) (n % 8 + 1)
    ∧ (outsAt0 m c n hn).2.2.2.1 (ix2 b d) = partMax (col (xarr m c) p d) (n % 8 + 1)
    ∧ (outsAt0 m c n hn).2.2.2.2 (ix2 b d) = partMin (col (xarr m c) p d) (n % 8 + 1) := by
  intro n
  induction n with
  | zero =>
    intro hn b d p hp
    have hk : 0 % 8 < 8 := by norm_num
    have hrow : rowOf ⟨0, hn⟩ b = p := Fin.ext (by simp only [rowOf]; omega)
    have hxb : ∀ r : Fin 1024, xblk m c ⟨0, hn⟩ (ix3 b r d) = xarr m c (ix3 p (runIdx (0 % 8) hk r) d) := fun r => by
      rw [xblk_apply, hrow]; rfl
    have h0 : (⟨0, hn⟩ : Fin cfg0.N).val % 8 = 0 := rfl
    have h1 : ¬(⟨0, hn⟩ : Fin cfg0.N).val % 8 = 7 := by show ¬(0 % 8 = 7); decide
    refine ⟨?_, ?_, ?_, ?_⟩
    · refine (congrFun (first_0 m c ⟨0, hn⟩ h0 h1) (ix2 b d)).trans ?_
      exact step_sum (xarr m c) _ _ b d p (0 % 8) hk hxb (by rw [pay3_apply]; exact (partSum_zero _).symm)
    · refine (congrFun (first_1 m c ⟨0, hn⟩ h0 h1) (ix2 b d)).trans ?_
      exact step_sumsq (xarr m c) _ _ b d p (0 % 8) hk hxb (by rw [pay4_apply]; exact (partSum_zero _).symm)
    · refine (congrFun (first_2 m c ⟨0, hn⟩ h0 h1) (ix2 b d)).trans ?_
      exact step_max (xarr m c) _ _ b d p (0 % 8) hk hxb (by rw [pay5_apply]; exact (partMax_zero _).symm)
    · refine (congrFun (first_3 m c ⟨0, hn⟩ h0 h1) (ix2 b d)).trans ?_
      exact step_min (xarr m c) _ _ b d p (0 % 8) hk hxb (by rw [pay6_apply]; exact (partMin_zero _).symm)
  | succ n ih =>
    intro hn b d p hp
    have hN : cfg0.N = 64 := N_0
    have hk : (n + 1) % 8 < 8 := Nat.mod_lt _ (by norm_num)
    have hrow : rowOf ⟨n + 1, hn⟩ b = p := Fin.ext (by simp only [rowOf]; omega)
    have hxb : ∀ r : Fin 1024, xblk m c ⟨n + 1, hn⟩ (ix3 b r d) = xarr m c (ix3 p (runIdx ((n + 1) % 8) hk r) d) := fun r => by
      rw [xblk_apply, hrow]; rfl
    by_cases h0 : (n + 1) % 8 = 0
    · have h1 : ¬(n + 1) % 8 = 7 := by omega
      refine ⟨?_, ?_, ?_, ?_⟩
      · refine (congrFun (first_0 m c ⟨n + 1, hn⟩ h0 h1) (ix2 b d)).trans ?_
        exact step_sum (xarr m c) _ _ b d p ((n + 1) % 8) hk hxb (by rw [pay3_apply, h0]; exact (partSum_zero _).symm)
      · refine (congrFun (first_1 m c ⟨n + 1, hn⟩ h0 h1) (ix2 b d)).trans ?_
        exact step_sumsq (xarr m c) _ _ b d p ((n + 1) % 8) hk hxb (by rw [pay4_apply, h0]; exact (partSum_zero _).symm)
      · refine (congrFun (first_2 m c ⟨n + 1, hn⟩ h0 h1) (ix2 b d)).trans ?_
        exact step_max (xarr m c) _ _ b d p ((n + 1) % 8) hk hxb (by rw [pay5_apply, h0]; exact (partMax_zero _).symm)
      · refine (congrFun (first_3 m c ⟨n + 1, hn⟩ h0 h1) (ix2 b d)).trans ?_
        exact step_min (xarr m c) _ _ b d p ((n + 1) % 8) hk hxb (by rw [pay6_apply, h0]; exact (partMin_zero _).symm)
    · have e : n % 8 + 1 = (n + 1) % 8 := by omega
      have hp' : p.val = 8 * (n / 8) + b.val := by omega
      obtain ⟨i0, i1, i2, i3⟩ := ih (Nat.lt_of_succ_lt hn) b d p hp'
      rw [e] at i0 i1 i2 i3
      refine ⟨?_, ?_, ?_, ?_⟩
      · refine (congrFun (later_0 m c ⟨n + 1, hn⟩ h0) (ix2 b d)).trans ?_
        exact step_sum (xarr m c) _ _ b d p ((n + 1) % 8) hk hxb i0
      · refine (congrFun (later_1 m c ⟨n + 1, hn⟩ h0) (ix2 b d)).trans ?_
        exact step_sumsq (xarr m c) _ _ b d p ((n + 1) % 8) hk hxb i1
      · refine (congrFun (later_2 m c ⟨n + 1, hn⟩ h0) (ix2 b d)).trans ?_
        exact step_max (xarr m c) _ _ b d p ((n + 1) % 8) hk hxb i2
      · refine (congrFun (later_3 m c ⟨n + 1, hn⟩ h0) (ix2 b d)).trans ?_
        exact step_min (xarr m c) _ _ b d p ((n + 1) % 8) hk hxb i3

/-- What a row's last point writes into the output block, at (b, q): the result's entry at row 8·i + b, column q. -/
theorem out_last (t : Fin cfg0.N) (h7 : t.val % 8 = 7) (b : Fin 8) (q : Fin 640) :
    (outsAt0 m c t.val t.isLt).1 (ix2 b q) = Cert.Pool.outAt (xarr m c) (rowOf t b) q := by
  have h0 : ¬t.val % 8 = 0 := by omega
  have hp : (rowOf t b).val = 8 * (t.val / 8) + b.val := rfl
  have e8 : t.val % 8 + 1 = 8 := by omega
  have I : ∀ d : Fin 128, _ := fun d => inv m c t.val t.isLt b d (rowOf t b) hp
  rw [last_out m c t h0 h7, canon5_apply]
  unfold Cert.Pool.outAt
  have hS : ∀ d, (outsAt0 m c t.val t.isLt).2.1 (ix2 b d) = colSum (xarr m c) (rowOf t b) d := fun d => by
    rw [(I d).1, e8, partSum_eight]; rfl
  have hQ : ∀ d, (outsAt0 m c t.val t.isLt).2.2.1 (ix2 b d) = colSumSq (xarr m c) (rowOf t b) d := fun d => by
    rw [(I d).2.1, e8, partSum_eight]; rfl
  have hMx : ∀ d, (outsAt0 m c t.val t.isLt).2.2.2.1 (ix2 b d) = colMax (xarr m c) (rowOf t b) d := fun d => by
    rw [(I d).2.2.1, e8, partMax_eight]; rfl
  have hMn : ∀ d, (outsAt0 m c t.val t.isLt).2.2.2.2 (ix2 b d) = colMin (xarr m c) (rowOf t b) d := fun d => by
    rw [(I d).2.2.2, e8, partMin_eight]; rfl
  rw [pay1_apply, pay2_apply, hS, hQ, hMx, hMn]
  rfl

end Cert.KernelIdeal.Pool

end
-- ==== Proof.KerFinal.lean ====
/-
  From the value of the blocks the kernel writes back to the whole result array.  The output window's block at grid
  point t = 8·i + j is rows 8i … 8i+7 and all 640 columns of the [64, 640] result, and it is written back at the
  points with j = 7 only.  If what is written back at such a point is the pooled statistics of rows 8i … 8i+7, then,
  the eight written-back blocks tiling the result, the result array is the pooled statistics of the whole input.
-/
import proofs.«120007_j57707180589696_1_alg».proof.Proof.KerBlocks

noncomputable section

namespace Cert.KernelIdeal.Pool

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The output window's block index at point `t`: (t / 8, 0), decided over the 64 points. -/
theorem index_out : ∀ t : Fin cfg0.N, win0_1.index t (0 : Fin 2) = t.val / 8 ∧ win0_1.index t (1 : Fin 2) = 0 :=
  (by decide +kernel : ∀ t : Fin grid0.N, _)

/-- What a point with t % 8 = 7 writes back is its block of the pooled statistics of the input array. -/
theorem flushed_eq (c : Dev nD)
    (H : ∀ (t : Fin cfg0.N), t.val % 8 = 7 → ∀ (b : Fin 8) (q : Fin 640),
      (outsAt0 (F := Ideal) m c t.val t.isLt).1 (ix2 b q) = Cert.Pool.outAt (xarr m c) (rowOf t b) q)
    (t : Fin cfg0.N) (hf : (cfg0.win 1).flush t = true) :
    (dats m 0 c).flushed 1 t = ((cfg0.win 1).blk t).view.read (Elt Ideal) (Cert.Pool.out (xarr m c)) := by
  have h7 : t.val % 8 = 7 := (flush0_1 t).mp hf
  obtain ⟨e0, e1⟩ := index_out t
  rw [Value.flushed1]
  funext y
  rw [View.read_apply]
  have hy0 : (y 0).val < 8 := (y 0).isLt
  have hy1 : (y 1).val < 640 := (y 1).isLt
  -- the written-back block at y is the staged block at the same coordinates
  have hx : win0_1.xinj (grid0.coords t) y = ix2 (⟨(y 0).val, hy0⟩ : Fin 8) (⟨(y 1).val, hy1⟩ : Fin 640) := by
    funext a
    match a with
    | ⟨0, _⟩ => rfl
    | ⟨1, _⟩ => rfl
  show (outsAt0 m c t.val t.isLt).1 (win0_1.xinj (grid0.coords t) y)
    = Cert.Pool.out (xarr m c) (((cfg0.win 1).blk t).view.emb y)
  rw [hx, H t h7]
  -- the block's coordinate (b, q) is the array's (8·(t / 8) + b, q)
  show Cert.Pool.outAt (xarr m c) _ _
    = Cert.Pool.outAt (xarr m c) ((((cfg0.win 1).blk t).view.emb y) 0) ((((cfg0.win 1).blk t).view.emb y) 1)
  congr 1
  · apply Fin.ext
    show 8 * (t.val / 8) + (y 0).val = win0_1.index t (0 : Fin 2) * 8 + 1 * (y 0).val
    omega
  · apply Fin.ext
    show (y 1).val = win0_1.index t (1 : Fin 2) * 640 + 1 * (y 1).val
    omega

/-- An index of the result array is in point `t`'s block iff each coordinate is in the block's range on its axis. -/
theorem mem_blk_out (t : Fin cfg0.N) (i : S64x640.Idx) :
    i ∈ ((cfg0.win 1).blk t).view.set ↔ ∀ a : Fin 2, win0_1.index t a * S8x640.size a ≤ (i a).val
      ∧ (i a).val < win0_1.index t a * S8x640.size a + S8x640.size a := by
  show i ∈ ((View.whole main_v0).slice (win0_1.rect t)).set ↔ _
  rw [View.set_slice_whole, Rect.mem_set_unit]
  exact Iff.rfl

/-- Row p of the result lies in the block written back at point 8·(p / 8) + 7. -/
theorem cover_out (i : S64x640.Idx) : ∃ t : Fin cfg0.N, (cfg0.win 1).flush t = true ∧ i ∈ ((cfg0.win 1).blk t).view.set := by
  have hi0 : (i 0).val < 64 := (i 0).isLt
  have hi1 : (i 1).val < 640 := (i 1).isLt
  have hN : cfg0.N = 64 := N_0
  have hlt : 8 * ((i 0).val / 8) + 7 < cfg0.N := by omega
  obtain ⟨e0, e1⟩ := index_out ⟨8 * ((i 0).val / 8) + 7, hlt⟩
  have ev : (⟨8 * ((i 0).val / 8) + 7, hlt⟩ : Fin cfg0.N).val = 8 * ((i 0).val / 8) + 7 := rfl
  refine ⟨⟨8 * ((i 0).val / 8) + 7, hlt⟩, (flush0_1 _).mpr (by rw [ev]; omega), ?_⟩
  rw [mem_blk_out]
  intro a
  match a with
  | ⟨0, _⟩ =>
    show win0_1.index ⟨8 * ((i 0).val / 8) + 7, hlt⟩ (0 : Fin 2) * 8 ≤ (i 0).val
      ∧ (i 0).val < win0_1.index ⟨8 * ((i 0).val / 8) + 7, hlt⟩ (0 : Fin 2) * 8 + 8
    rw [ev] at e0; omega
  | ⟨1, _⟩ =>
    show win0_1.index ⟨8 * ((i 0).val / 8) + 7, hlt⟩ (1 : Fin 2) * 640 ≤ (i 1).val
      ∧ (i 1).val < win0_1.index ⟨8 * ((i 0).val / 8) + 7, hlt⟩ (1 : Fin 2) * 640 + 640
    omega

/-- THE RESULT ARRAY after the run is the pooled statistics of the input array, given the written-back blocks' values. -/
theorem final_of (m : (ℓ : Loc nD τ sig) → Buf (Elt Ideal) ℓ) (c : Dev nD)
    (H : ∀ (t : Fin cfg0.N), t.val % 8 = 7 → ∀ (b : Fin 8) (q : Fin 640),
      (outsAt0 (F := Ideal) m c t.val t.isLt).1 (ix2 b q) = Cert.Pool.outAt (xarr m c) (rowOf t b) q) :
    (dats m 0 c).arrAt 1 cfg0.N = Cert.Pool.out (xarr m c) :=
  (dats m 0 c).arrAt_eq_of_cover 1 (Cert.Pool.out (xarr m c)) (flushed_eq m c H) cover_out

/-- The run, read: the result array at the pooled statistics of the input as launched, the input unchanged. -/
theorem run_of (m : (ℓ : Loc nD τ sig) → Buf (Elt Ideal) ℓ) (ρ : Dev nD → PrngReg)
    (H : ∀ (c : Dev nD) (t : Fin cfg0.N), t.val % 8 = 7 → ∀ (b : Fin 8) (q : Fin 640),
      (outsAt0 (F := Ideal) m c t.val t.isLt).1 (ix2 b q) = Cert.Pool.outAt (xarr m c) (rowOf t b) q) :
    θ_run defs (onTc (τ := τ) (main (F := Ideal))) ⟨m, fun _ => 0, ρ⟩ fun r => ∀ c : Dev nD,
      r.2.mem ((c : Thread nD τ).loc main_v0) = Cert.Pool.out (m ((c : Thread nD τ).loc main_arg0))
      ∧ r.2.mem ((c : Thread nD τ).loc main_arg0) = m ((c : Thread nD τ).loc main_arg0) :=
  (θ_run defs _ _).mono (fun r h c => ⟨(h c).1.trans (final_of m c (H c)), (h c).2⟩) (Value.run_blocks m ρ)

end Cert.KernelIdeal.Pool

end
-- ==== Proof.RefRun.lean ====
/-
  The reference program's run, read back as one pure term of its argument.

  The program is a straight line of thirty-six host operations once its three nested calls are unfolded at their
  call sites: four reductions of the [64, 8192, 128] argument over its middle axis (two sums, a maximum, a minimum),
  the division of one sum by the broadcast count 8192 (the mean), the variance function's body (the mean again,
  broadcast back over the middle axis, subtracted, squared, summed, divided by the count minus the correction 0,
  with a select that keeps the quotient when that divisor is positive), its square root, and the concatenation of
  the five [64, 128] results along the second axis.  `refTerm` is that composition, written over named pieces;
  `run_term` says every weakly fair execution ends with the result buffer at `refTerm` of the argument's launch
  contents and the argument unchanged.
-/
import proofs.«120007_j57707180589696_1_alg».proof.Proof.Gen.ReferenceIdeal
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem
  Idealize.ShloMosaic.StableHlo
open Cert.ReferenceIdeal.Facts₀

/-! ## The value, piece by piece -/

section Term

variable [Cert.ReferenceIdeal.Facts]

/-- The sum over the middle axis, from the zero word. -/
def tSum (x : FVec Ideal S64x8192x128 .f32) : FVec Ideal S64x128 .f32 :=
  Host.reduceAdd (F := Ideal) x (constant (F := Ideal) S_ .f32 0x00000000#32) reducesTo_S64x8192x128_S64x128_d1 h_S_

/-- The mean: the sum divided by the broadcast count. -/
def tMean (x : FVec Ideal S64x8192x128 .f32) : FVec Ideal S64x128 .f32 :=
  Host.divf (F := Ideal) (tSum x) (broadcastInDim S64x128 ![] bcast_S_S64x128 (constant (F := Ideal) S_ .f32 0x46000000#32))

/-- The maximum over the middle axis, from the word of −∞. -/
def tMax (x : FVec Ideal S64x8192x128 .f32) : FVec Ideal S64x128 .f32 :=
  Host.reduce (FloatOps.maximumf (F := Ideal)) x (constant (F := Ideal) S_ .f32 0xFF800000#32) reducesTo_S64x8192x128_S64x128_d1 h_S_

/-- The minimum over the middle axis, from the word of +∞. -/
def tMin (x : FVec Ideal S64x8192x128 .f32) : FVec Ideal S64x128 .f32 :=
  Host.reduce (FloatOps.minimumf (F := Ideal)) x (constant (F := Ideal) S_ .f32 0x7F800000#32) reducesTo_S64x8192x128_S64x128_d1 h_S_

/-- The variance's divisor: the count minus the integer correction 0 converted to a float. -/
def tCnt : FVec Ideal S_ .f32 :=
  subf (F := Ideal) (constant (F := Ideal) S_ .f32 0x46000000#32) (sitofp (F := Ideal) .f32 (constantI S_ 32 0#32))

/-- The mean computed inside the variance function, broadcast back over the middle axis. -/
def tMeanB (x : FVec Ideal S64x8192x128 .f32) : FVec Ideal S64x8192x128 .f32 :=
  broadcastInDim S64x8192x128 ![0, 1, 2] bcast_S64x1x128_S64x8192x128_0_1_2
    (Host.divf (F := Ideal) (broadcastInDim S64x1x128 ![0, 2] bcast_S64x128_S64x1x128_0_2 (tSum x))
      (broadcastInDim S64x1x128 ![] bcast_S_S64x1x128 (constant (F := Ideal) S_ .f32 0x46000000#32)))

/-- The squared deviations from that mean. -/
def tSq (x : FVec Ideal S64x8192x128 .f32) : FVec Ideal S64x8192x128 .f32 :=
  mulf (F := Ideal) (subf (F := Ideal) x (tMeanB x)) (subf (F := Ideal) x (tMeanB x))

/-- The variance: the sum of the squared deviations over the divisor where the divisor is positive, else the
    word 0x7FC00000. -/
def tVar (x : FVec Ideal S64x8192x128 .f32) : FVec Ideal S64x128 .f32 :=
  select (broadcastInDim S64x128 ![] bcast_S_S64x128 (cmpf (F := Ideal) .ogt tCnt (constant (F := Ideal) S_ .f32 0x00000000#32)))
    (Host.divf (F := Ideal)
      (Host.reduceAdd (F := Ideal) (tSq x) (constant (F := Ideal) S_ .f32 0x00000000#32) reducesTo_S64x8192x128_S64x128_d1 h_S_)
      (broadcastInDim S64x128 ![] bcast_S_S64x128 tCnt))
    (broadcastInDim S64x128 ![] bcast_S_S64x128 (id (constant (F := Ideal) S_ .f32 0x7FC00000#32)))

/-- The standard deviation. -/
def tStd (x : FVec Ideal S64x8192x128 .f32) : FVec Ideal S64x128 .f32 := Host.sqrt (F := Ideal) (tVar x)

/-- The reference's result: mean, maximum, minimum, sum, standard deviation side by side along the second axis. -/
def refTerm (x : FVec Ideal S64x8192x128 .f32) : FVec Ideal S64x640 .f32 :=
  concatenate S64x640 1 [⟨S64x128, tMean x⟩, ⟨S64x128, tMax x⟩, ⟨S64x128, tMin x⟩, ⟨S64x128, tSum x⟩, ⟨S64x128, tStd x⟩]
    concatenates_S64x128_S64x128_S64x128_S64x128_S64x128_S64x640_d1

end Term

/-! ## The straight line -/

section Line

variable {F : FTy → Type} [FloatOps F] [Cert.ReferenceIdeal.Facts]

/-- @main's operations in order, the calls unfolded: twelve of its own (the mean's five, the maximum's and the
    minimum's two each, the sum's two, the integer zero), the variance function's nineteen into the buffers of its
    record, the select function's three into the buffers of its own, the square root, the concatenation. -/
abbrev ops : List (HloOp τ sig (Elt F)) :=
  [ nullary main_cst (constant S_ .f32 0x00000000#32),
    binary main_arg0 main_cst main_v0 ((fun x v => Host.reduceAdd x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_0 (constant S_ .f32 0x46000000#32),
    unary main_cst_0 main_v1 (broadcastInDim S64x128 ![] bcast_S_S64x128 : (⟨S_, .f32⟩ : BufTy).Contents (Elt F) → (⟨S64x128, .f32⟩ : BufTy).Contents (Elt F)),
    binary main_v0 main_v1 main_v2 (Host.divf : (⟨S64x128, .f32⟩ : BufTy).Contents (Elt F) → (⟨S64x128, .f32⟩ : BufTy).Contents (Elt F) → (⟨S64x128, .f32⟩ : BufTy).Contents (Elt F)),
    nullary main_cst_1 (constant S_ .f32 0xFF800000#32),
    binary main_arg0 main_cst_1 main_v3 ((fun x v => Host.reduce FloatOps.maximumf x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_2 (constant S_ .f32 0x7F800000#32),
    binary main_arg0 main_cst_2 main_v4 ((fun x v => Host.reduce FloatOps.minimumf x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_3 (constant S_ .f32 0x00000000#32),
    binary main_arg0 main_cst_3 main_v5 ((fun x v => Host.reduceAdd x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_c (constantI S_ 32 0#32),
    TRef.nullary main_call0.call0.cst (constant S_ .f32 0x00000000#32),
    TRef.binary (.of main_arg0) main_call0.call0.cst main_call0.call0.v0 (fun x v => Host.reduceAdd x v reducesTo_S64x8192x128_S64x128_d1 h_S_),
    TRef.unary main_call0.call0.v0 main_call0.call0.v1 (broadcastInDim S64x1x128 ![0, 2] bcast_S64x128_S64x1x128_0_2),
    TRef.nullary main_call0.call0.cst_0 (constant S_ .f32 0x46000000#32),
    TRef.unary main_call0.call0.cst_0 main_call0.call0.v2 (broadcastInDim S64x1x128 ![] bcast_S_S64x1x128),
    TRef.binary main_call0.call0.v1 main_call0.call0.v2 main_call0.call0.v3 Host.divf,
    TRef.unary main_call0.call0.v3 main_call0.call0.v4 (broadcastInDim S64x8192x128 ![0, 1, 2] bcast_S64x1x128_S64x8192x128_0_1_2),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x46000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S64x8192x128_S64x128_d1 h_S_),
    TRef.unary main_call0.call0.v8 main_call0.call0.v10 (broadcastInDim S64x128 ![] bcast_S_S64x128),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S64x128 ![] bcast_S_S64x128),
    TRef.ternary main_call0.call0.v12 main_call0.call0.v11 main_call0.call0.call0.v1 main_call0.call0.call0.v2 (fun p a b => select (broadcastInDim S64x128 ![] bcast_S_S64x128 p) a b),
    TRef.unary main_call0.call0.call0.v2 main_call0.v1 Host.sqrt,
    nary ![main_v2, main_v3, main_v4, main_v5, main_v6] main_v7 (fun u => concatenate S64x640 1 [⟨S64x128, u 0⟩, ⟨S64x128, u 1⟩, ⟨S64x128, u 2⟩, ⟨S64x128, u 3⟩, ⟨S64x128, u 4⟩] concatenates_S64x128_S64x128_S64x128_S64x128_S64x128_S64x640_d1) ]

-- thirty-six binds re-associated under the calls' definitions
set_option maxRecDepth 1024 in
/-- @main is that straight line: the three functions' definitions unfolded at their calls and the records at their
    fields, both sides are one chain of steps once sequencing is re-associated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub ..,
    nullary_bufs_sub .., binary_bufs_sub .., nullary_bufs_sub .., binary_bufs_sub .., nullary_bufs_sub ..,
    binary_bufs_sub .., nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub ..,
    unary_bufs_sub .., nary_bufs_sub ..⟩

end Line

/-! ## The run -/

section Run

/-- The concatenation's result with each operand's contents at its own buffer. -/
theorem concat_result {F : FTy → Type} [FloatOps F] [Cert.ReferenceIdeal.Facts] (V : Valuation τ sig (Elt F)) :
    (nary (τ := τ) ![main_v2, main_v3, main_v4, main_v5, main_v6] main_v7 (fun u => concatenate S64x640 1 [⟨S64x128, u 0⟩, ⟨S64x128, u 1⟩, ⟨S64x128, u 2⟩, ⟨S64x128, u 3⟩, ⟨S64x128, u 4⟩] concatenates_S64x128_S64x128_S64x128_S64x128_S64x128_S64x640_d1) : HloOp τ sig (Elt F)).result V (Proc.devRef .tc main_v7)
      = concatenate S64x640 1 [⟨S64x128, V (Proc.devRef .tc main_v2)⟩, ⟨S64x128, V (Proc.devRef .tc main_v3)⟩,
          ⟨S64x128, V (Proc.devRef .tc main_v4)⟩, ⟨S64x128, V (Proc.devRef .tc main_v5)⟩, ⟨S64x128, V (Proc.devRef .tc main_v6)⟩]
          concatenates_S64x128_S64x128_S64x128_S64x128_S64x128_S64x640_d1 :=
  nary_result _ _ _ _ _ V

/-- Two concatenations of five [64, 128] pieces agree when the pieces do. -/
theorem concat_congr {α : Type} (h : Shape.Concatenates [S64x128, S64x128, S64x128, S64x128, S64x128] S64x640 1)
    {a0 a1 a2 a3 a4 b0 b1 b2 b3 b4 : S64x128.Idx → α} (e0 : a0 = b0) (e1 : a1 = b1) (e2 : a2 = b2) (e3 : a3 = b3) (e4 : a4 = b4) :
    concatenate S64x640 1 [⟨S64x128, a0⟩, ⟨S64x128, a1⟩, ⟨S64x128, a2⟩, ⟨S64x128, a3⟩, ⟨S64x128, a4⟩] h
      = concatenate S64x640 1 [⟨S64x128, b0⟩, ⟨S64x128, b1⟩, ⟨S64x128, b2⟩, ⟨S64x128, b3⟩, ⟨S64x128, b4⟩] h := by
  subst e0 e1 e2 e3 e4; rfl

/-- At the ideal values, from any memory with zero counters: every weakly fair execution of @main terminates with
    the result buffer at `refTerm` of the argument's launch contents and the argument unchanged. -/
theorem run_term (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0)) :=
  (θ_run defs _ _).mono (fun _ h c => ⟨(h c main_v7).trans (by
        simp only [after_cons, after_nil]
        refine (concat_result _).trans ?_
        unfold refTerm
        refine concat_congr _ ?_ ?_ ?_ ?_ ?_
        · after_results_simp; rfl
        · after_results_simp; rfl
        · after_results_simp; rfl
        · after_results_simp; rfl
        · after_results_simp; rfl),
      (h c main_arg0).trans (by after_results)⟩)
    (run_seq scopedRefs_eq scopedSems_eq defs main (fun _ => ops) main_eq (fun _ => ops_sub) m ρ)

end Run

end Cert.ReferenceIdeal.RefValue

end
-- ==== Proof.RefValue.lean ====
/-
  The reference's value, index by index: `refTerm` is the two-pass arrangement of the five pooled statistics.

  Read at row b and column c, the concatenation of five [64, 128] pieces is piece c / 128 at lane c % 128.  Each piece
  is read through its operations: the host's sum over the middle axis from the zero word is the sum of the 8192
  entries of the column; the maximum and the minimum from the words of −∞ and +∞ are the folds of max from ⊥ and of
  min from ⊤; the mean is the sum divided by the word of 8192; inside the variance function the same mean is broadcast
  back along the middle axis, so the squared deviations sum to Σ (x − mean)²; the divisor 8192 − 0 is 8192, it is
  positive, so the select keeps the quotient; the standard deviation is its square root.
-/
import proofs.«120007_j57707180589696_1_alg».proof.Proof.RefRun
import proofs.«120007_j57707180589696_1_alg».proof.Proof.Spec
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Idealize.ShloMosaic Idealize.ShloMosaic.ValueIdx Idealize.ShloMosaic.TcCoe Idealize.SL.Sem
  Idealize.ShloMosaic.StableHlo

/-! ## The words -/

/-- The word 0xFF800000 is −∞. -/
theorem word_negInf : Ideal.ofBits .f32 0xFF800000#32 = ⊥ := by simp [Ideal.ofBits, Ideal.ieee]
/-- The word 0x7F800000 is +∞. -/
theorem word_posInf : Ideal.ofBits .f32 0x7F800000#32 = ⊤ := by simp [Ideal.ofBits, Ideal.ieee]
/-- The word 0x46000000 is the real 8192. -/
theorem word_cnt : Ideal.ofBits .f32 0x46000000#32 = ((8192 : ℝ) : EReal) := by
  simp [Ideal.ofBits, Ideal.ieee, -EReal.coe_mul]; norm_num

/-! ## The operations read at an index, over variables -/

/-- The index of row b, entry k, lane d is the reduced index (b, d) with k inserted on the middle axis. -/
theorem lift_eq (h : S64x8192x128.Reduces [1] S64x128) (b : Fin 64) (d : Fin 128) (k : Fin 8192) :
    h.lift (ix2 b d) k = ix3 b k d := by
  funext a
  match a with
  | ⟨0, _⟩ => exact Fin.ext rfl
  | ⟨1, _⟩ => exact Fin.ext rfl
  | ⟨2, _⟩ => exact Fin.ext rfl

/-- The host's sum over the middle axis from the zero word is the sum of the column's entries. -/
theorem sum_read (h' : S64x8192x128.ReducesTo [1] S64x128) (hS : 0 < S_.numel)
    (y : FVec Ideal S64x8192x128 .f32) (b : Fin 64) (d : Fin 128) :
    Host.reduceAdd (F := Ideal) y (constant (F := Ideal) S_ .f32 0x00000000#32) h' hS (ix2 b d)
      = ∑ k : Fin 8192, y (ix3 b k d) := by
  have h : S64x8192x128.Reduces [1] S64x128 := by decide
  rw [hostReduceAdd_apply, Ideal.hostReduceAdd_single h' h, constant_apply, Ideal.ofBits_zero_f32, zero_add]
  exact Finset.sum_congr rfl (fun k _ => congrArg y (lift_eq h b d k))

/-- The host's maximum over the middle axis from the word of −∞ is the fold of max from ⊥ over the column. -/
theorem max_read (h' : S64x8192x128.ReducesTo [1] S64x128) (hS : 0 < S_.numel)
    (y : FVec Ideal S64x8192x128 .f32) (b : Fin 64) (d : Fin 128) :
    Host.reduce (FloatOps.maximumf (F := Ideal)) y (constant (F := Ideal) S_ .f32 0xFF800000#32) h' hS (ix2 b d)
      = (Finset.univ : Finset (Fin 8192)).fold max (⊥ : EReal) (fun k => y (ix3 b k d)) := by
  have h : S64x8192x128.Reduces [1] S64x128 := by decide
  rw [Host.reduce_eq_fold_single _ y _ h' h hS, constant_apply, word_negInf]
  have e : (y ∘ h.lift (ix2 b d)) = fun k : Fin 8192 => y (ix3 b k d) := funext fun k => congrArg y (lift_eq h b d k)
  rw [e]
  rfl

/-- The host's minimum over the middle axis from the word of +∞ is the fold of min from ⊤ over the column. -/
theorem min_read (h' : S64x8192x128.ReducesTo [1] S64x128) (hS : 0 < S_.numel)
    (y : FVec Ideal S64x8192x128 .f32) (b : Fin 64) (d : Fin 128) :
    Host.reduce (FloatOps.minimumf (F := Ideal)) y (constant (F := Ideal) S_ .f32 0x7F800000#32) h' hS (ix2 b d)
      = (Finset.univ : Finset (Fin 8192)).fold min (⊤ : EReal) (fun k => y (ix3 b k d)) := by
  have h : S64x8192x128.Reduces [1] S64x128 := by decide
  rw [Host.reduce_eq_fold_single _ y _ h' h hS, constant_apply, word_posInf]
  have e : (y ∘ h.lift (ix2 b d)) = fun k : Fin 8192 => y (ix3 b k d) := funext fun k => congrArg y (lift_eq h b d k)
  rw [e]
  rfl

/-- A [64, 128] array broadcast to [64, 1, 128] along axes 0 and 2, read at (b, 0, d), is the array at (b, d). -/
theorem bcast_mid_read {α : Type} (h : S64x128.BroadcastsInDim S64x1x128 (![0, 2] : Fin 2 → Fin S64x1x128.rank))
    (s : S64x128.Idx → α) (b : Fin 64) (d : Fin 128) :
    broadcastInDim S64x1x128 ![0, 2] h s (ix3 b 0 d) = s (ix2 b d) :=
  broadcastInDim_apply _ h s _ _ (fun a => by
    match a with
    | ⟨0, _⟩ => rfl
    | ⟨1, _⟩ => rfl)

/-- A [64, 1, 128] array broadcast to [64, 8192, 128], read at (b, k, d), is the array at (b, 0, d). -/
theorem bcast_full_read {α : Type} (h : S64x1x128.BroadcastsInDim S64x8192x128 (![0, 1, 2] : Fin 3 → Fin S64x8192x128.rank))
    (s : S64x1x128.Idx → α) (b : Fin 64) (k : Fin 8192) (d : Fin 128) :
    broadcastInDim S64x8192x128 ![0, 1, 2] h s (ix3 b k d) = s (ix3 b 0 d) :=
  broadcastInDim_apply _ h s _ _ (fun a => by
    match a with
    | ⟨0, _⟩ => rfl
    | ⟨1, _⟩ => rfl
    | ⟨2, _⟩ => rfl)

/-- Five [64, 128] pieces side by side along the second axis, read at (b, c): piece c / 128 at lane c % 128. -/
theorem concat_read {α : Type} (h : Shape.Concatenates [S64x128, S64x128, S64x128, S64x128, S64x128] S64x640 1)
    (p0 p1 p2 p3 p4 : S64x128.Idx → α) (b : Fin 64) (c : Fin 640) :
    concatenate S64x640 1 [⟨S64x128, p0⟩, ⟨S64x128, p1⟩, ⟨S64x128, p2⟩, ⟨S64x128, p3⟩, ⟨S64x128, p4⟩] h (ix2 b c)
      = if c.val < 128 then p0 (ix2 b (Cert.Pool.lane c))
        else if c.val < 256 then p1 (ix2 b (Cert.Pool.lane c))
        else if c.val < 384 then p2 (ix2 b (Cert.Pool.lane c))
        else if c.val < 512 then p3 (ix2 b (Cert.Pool.lane c))
        else p4 (ix2 b (Cert.Pool.lane c)) := by
  have hi : ∀ b' : Fin S64x128.rank, b'.cast (rfl : S64x128.rank = S64x640.rank) ≠ (1 : Fin S64x640.rank) →
      ((ix2 b (Cert.Pool.lane c) : S64x128.Idx) b').val = ((ix2 b c : S64x640.Idx) (b'.cast rfl)).val := by
    intro b' hb
    match b', hb with
    | ⟨0, _⟩, _ => rfl
    | ⟨1, _⟩, hb => exact absurd rfl hb
  have hc := c.isLt
  have hl : (Cert.Pool.lane c).val = c.val % 128 := rfl
  split_ifs with h0 h1 h2 h3
  · exact concatenate_apply_piece (t := S64x640) 1 [⟨S64x128, p0⟩, ⟨S64x128, p1⟩, ⟨S64x128, p2⟩, ⟨S64x128, p3⟩, ⟨S64x128, p4⟩]
      h (ix2 b c) 0 (by simp) S64x128 p0 rfl rfl 0 rfl (ix2 b (Cert.Pool.lane c)) hi
      (by show 0 + (Cert.Pool.lane c).val = c.val; omega)
  · exact concatenate_apply_piece (t := S64x640) 1 [⟨S64x128, p0⟩, ⟨S64x128, p1⟩, ⟨S64x128, p2⟩, ⟨S64x128, p3⟩, ⟨S64x128, p4⟩]
      h (ix2 b c) 1 (by simp) S64x128 p1 rfl rfl 128 rfl (ix2 b (Cert.Pool.lane c)) hi
      (by show 128 + (Cert.Pool.lane c).val = c.val; omega)
  · exact concatenate_apply_piece (t := S64x640) 1 [⟨S64x128, p0⟩, ⟨S64x128, p1⟩, ⟨S64x128, p2⟩, ⟨S64x128, p3⟩, ⟨S64x128, p4⟩]
      h (ix2 b c) 2 (by simp) S64x128 p2 rfl rfl 256 rfl (ix2 b (Cert.Pool.lane c)) hi
      (by show 256 + (Cert.Pool.lane c).val = c.val; omega)
  · exact concatenate_apply_piece (t := S64x640) 1 [⟨S64x128, p0⟩, ⟨S64x128, p1⟩, ⟨S64x128, p2⟩, ⟨S64x128, p3⟩, ⟨S64x128, p4⟩]
      h (ix2 b c) 3 (by simp) S64x128 p3 rfl rfl 384 rfl (ix2 b (Cert.Pool.lane c)) hi
      (by show 384 + (Cert.Pool.lane c).val = c.val; omega)
  · exact concatenate_apply_piece (t := S64x640) 1 [⟨S64x128, p0⟩, ⟨S64x128, p1⟩, ⟨S64x128, p2⟩, ⟨S64x128, p3⟩, ⟨S64x128, p4⟩]
      h (ix2 b c) 4 (by simp) S64x128 p4 rfl rfl 512 rfl (ix2 b (Cert.Pool.lane c)) hi
      (by show 512 + (Cert.Pool.lane c).val = c.val; omega)

/-! ## The pieces -/

section Pieces

variable [Cert.ReferenceIdeal.Facts]

open Cert.Pool

theorem tSum_read (x : FVec Ideal S64x8192x128 .f32) (b : Fin 64) (d : Fin 128) : tSum x (ix2 b d) = colSum x b d := by
  unfold tSum colSum col
  exact sum_read _ _ x b d

theorem tMax_read (x : FVec Ideal S64x8192x128 .f32) (b : Fin 64) (d : Fin 128) : tMax x (ix2 b d) = colMax x b d := by
  unfold tMax colMax col
  exact max_read _ _ x b d

theorem tMin_read (x : FVec Ideal S64x8192x128 .f32) (b : Fin 64) (d : Fin 128) : tMin x (ix2 b d) = colMin x b d := by
  unfold tMin colMin col
  exact min_read _ _ x b d

theorem tMean_read (x : FVec Ideal S64x8192x128 .f32) (b : Fin 64) (d : Fin 128) : tMean x (ix2 b d) = mean2 x b d := by
  unfold tMean mean2 cntN
  rw [hostDivf_apply, tSum_read, broadcastInDim_scalar_apply, constant_apply, word_cnt]

/-- The variance's divisor is 8192: the count less the integer zero converted. -/
theorem tCnt_read : tCnt ix0 = ((8192 : ℝ) : EReal) := by
  show Ideal.ofBits .f32 0x46000000#32 - (((0#32 : BitVec 32).toInt : ℝ) : EReal) = _
  rw [word_cnt]
  simp

/-- The mean broadcast back over the middle axis reads the two-pass mean at every entry of the column. -/
theorem tMeanB_read (x : FVec Ideal S64x8192x128 .f32) (b : Fin 64) (k : Fin 8192) (d : Fin 128) :
    tMeanB x (ix3 b k d) = mean2 x b d := by
  unfold tMeanB mean2 cntN
  rw [bcast_full_read, hostDivf_apply, bcast_mid_read, tSum_read, broadcastInDim_scalar_apply, constant_apply, word_cnt]

theorem tSq_read (x : FVec Ideal S64x8192x128 .f32) (b : Fin 64) (k : Fin 8192) (d : Fin 128) :
    tSq x (ix3 b k d) = (col x b d k - mean2 x b d) * (col x b d k - mean2 x b d) := by
  unfold tSq
  rw [mulf_apply, subf_apply, tMeanB_read]
  rfl

/-- The comparison of the divisor with zero is the bit 1. -/
theorem cnt_pos_bit : FloatOps.cmpf (F := Ideal) (φ := .f32) .ogt ((8192 : ℝ) : EReal) 0 = 1#1 := by
  have hpos : (0 : EReal) < ((8192 : ℝ) : EReal) := EReal.coe_pos.mpr (by norm_num)
  show BitVec.ofBool (decide ((0 : EReal) < ((8192 : ℝ) : EReal))) = 1#1
  rw [decide_eq_true hpos]
  rfl

theorem tVar_read (x : FVec Ideal S64x8192x128 .f32) (b : Fin 64) (d : Fin 128) :
    tVar x (ix2 b d)
      = Ideal.div (∑ k : Fin 8192, (col x b d k - mean2 x b d) * (col x b d k - mean2 x b d)) cntN := by
  unfold tVar
  simp only [select_apply, hostDivf_apply, sum_read, tSq_read]
  rw [broadcastInDim_scalar_apply, broadcastInDim_scalar_apply, broadcastInDim_scalar_apply]
  simp only [cmpf_apply, tCnt_read, constant_apply, Ideal.ofBits_zero_f32, cnt_pos_bit, select_one]
  rfl

theorem tStd_read (x : FVec Ideal S64x8192x128 .f32) (b : Fin 64) (d : Fin 128) : tStd x (ix2 b d) = std2 x b d := by
  unfold tStd std2
  show Ideal.sqrt (tVar x (ix2 b d)) = _
  rw [tVar_read]

/-- The reference's result is the two-pass arrangement of the pooled statistics. -/
theorem refTerm_eq_out2 (x : FVec Ideal S64x8192x128 .f32) : refTerm x = Cert.Pool.out2 x := by
  funext j
  obtain ⟨b, c, rfl⟩ : ∃ (b : Fin 64) (c : Fin 640), j = ix2 b c := ⟨j 0, j 1, eq_ix2 j⟩
  unfold refTerm
  rw [concat_read]
  show _ = Cert.Pool.outAt2 x b c
  unfold Cert.Pool.outAt2
  rw [tMean_read, tMax_read, tMin_read, tSum_read, tStd_read]

end Pieces

/-! ## The run, at the specification's value -/

/-- At the ideal values, from any memory with zero counters: every weakly fair execution of @main terminates with
    the result buffer at the two-pass pooled statistics of the argument's launch contents and the argument unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v7) = Cert.Pool.out2 (m ((c.tc : Thread nD τ).loc main_arg0))
      ∧ r.2.mem ((c.tc : Thread nD τ).loc main_arg0) = m ((c.tc : Thread nD τ).loc main_arg0)) :=
  (θ_run _ _ _).mono (fun _ h c => ⟨(h c).1.trans (refTerm_eq_out2 _), (h c).2⟩) (run_term m ρ)

end Cert.ReferenceIdeal.RefValue

end
-- ==== Proof.FiniteInputs.lean ====
/-
  The printed precondition says that every entry of the input lies strictly below +∞ in absolute value.
  Read back at an index this makes every entry a real number: an extended real a with max a (-a) < ⊤ is
  neither ⊥ (its negation is ⊤) nor ⊤.
-/
import proofs.«120007_j57707180589696_1_alg».proof.Pre_finite_inputs
import proofs.«120007_j57707180589696_1_alg».proof.Proof.Gen.Pre_finite_inputs
import proofs.«120007_j57707180589696_1_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Pool.Pre

open Idealize.ShloMosaic Idealize.ShloMosaic.ValueIdx

/-- The rank-0 shape has one index. -/
instance : Subsingleton Cert.Pre_finite_inputs.S_.Idx := ⟨fun a b => funext fun d => d.elim0⟩

/-- The pattern 0x7F800000 (exponent all ones, fraction zero, sign clear) denotes +∞. -/
theorem ofBits_posInf : Ideal.ofBits .f32 0x7F800000#32 = (⊤ : EReal) := by
  simp [Ideal.ofBits, Ideal.ieee]

/-- The ordered less-than comparison answers 1 only on a strict inequality. -/
theorem lt_of_cmp_olt {a b : EReal} (h : Ideal.cmp .olt a b = 1#1) : a < b := by
  by_contra hn
  simp [Ideal.cmp, hn] at h

/-- An extended real whose absolute value lies strictly below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Under the printed precondition every entry of the input is a real number. -/
theorem finite_of_pre [Cert.Pre_finite_inputs.Facts]
    (x : FVec Ideal Cert.Pre_finite_inputs.S64x8192x128 .f32)
    (h : Cert.Pre_finite_inputs.fn (F := Ideal) x = fun _ => 1#1) : Cert.Pool.Finite x := by
  intro i
  have h0 := congrFun h ix0
  dsimp only [Cert.Pre_finite_inputs.fn] at h0
  have hi := Host.reduce_andi_all _ _ _ _ _ h0 i
  -- at index i the comparison reads: max (x i) (-(x i)) < the value of the pattern 0x7F800000
  have hc : Ideal.cmp .olt (max (x i) (-(x i))) (Ideal.ofBits .f32 0x7F800000#32) = 1#1 := hi
  rw [ofBits_posInf] at hc
  exact real_of_abs_lt_top _ (lt_of_cmp_olt hc)

end Cert.Pool.Pre

end
-- ==== Proof.Claims.lean ====
/-
  The five claims.  Both idealized programs end with the result array [64, 640] holding, per row, the mean, maximum,
  minimum, sum and population standard deviation over the 8192 entries of each lane, side by side.  The kernel
  accumulates a lane's sum, sum of squares, maximum and minimum 1024 entries at a time and forms mean = sum · (1/8192)
  and std = sqrt (max (sumsq · (1/8192) − mean²) 0); the reference takes mean = sum / 8192 and std = sqrt of the mean
  of the squared deviations from it.  On the extended reals the sums, maxima and minima do not depend on the grouping,
  and 1/8192 is a power of two, so the means agree on every input; the two forms of the variance agree when every
  entry is a real number, which the precondition gives, and the first is then non-negative, so the clamp is the identity.
-/
import proofs.«120007_j57707180589696_1_alg».proof.Defs
import proofs.«120007_j57707180589696_1_alg».proof.Proof.Gen.Kernel.Frame
import proofs.«120007_j57707180589696_1_alg».proof.Proof.Gen.KernelIdeal.Frame
import proofs.«120007_j57707180589696_1_alg».proof.Proof.Gen.ReferenceIdeal
import proofs.«120007_j57707180589696_1_alg».proof.Proof.Gen.Pre_finite_inputs
import proofs.«120007_j57707180589696_1_alg».proof.Proof.KerInv
import proofs.«120007_j57707180589696_1_alg».proof.Proof.KerFinal
import proofs.«120007_j57707180589696_1_alg».proof.Proof.RefValue
import proofs.«120007_j57707180589696_1_alg».proof.Proof.FiniteInputs
import proofs.«120007_j57707180589696_1_alg».proof.Proof.Algebra

noncomputable section

open Idealize.ShloMosaic Idealize.ShloMosaic.TcCoe Idealize.SL.Sem

namespace Cert.Proof.PoolClaims

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The kernel's result array ends at the one-pass arrangement of the statistics, the reference's at the two-pass
    one, of arguments that agree; every entry being real, the two arrangements are one array. -/
theorem algebraic : Cert.algebraic_KernelIdeal_ReferenceIdeal := by
  intro m ρ m' ρ' hpre hagree
  have hfin : ∀ c : Dev Cert.KernelIdeal.nD,
      Cert.Pool.Finite (m ((c.tc : Thread Cert.KernelIdeal.nD Cert.KernelIdeal.τ).loc Cert.KernelIdeal.main_arg0)) :=
    fun c => Cert.Pool.Pre.finite_of_pre _ (hpre c)
  refine ⟨_, Cert.KernelIdeal.Pool.run_of m ρ (fun c t h7 b q => Cert.KernelIdeal.Pool.out_last m c t h7 b q), ?_⟩
  refine (θ_run Cert.ReferenceIdeal.defs _ _).mono (fun _ h c => ⟨(h c).1.trans ?_, (h c).2⟩)
    (Cert.ReferenceIdeal.RefValue.run m' ρ')
  rw [hagree c]
  exact Cert.Pool.out2_eq_out _ (hfin c)

end Cert.Proof.PoolClaims

end
-- ==== Proof.lean ====
/-
  The certificate: the pooled statistics (mean, maximum, minimum, sum, population standard deviation over the middle
  axis of a [64, 8192, 128] array) computed by the blocked accumulating kernel equal those of the two-pass reference
  on the extended reals, for finite inputs.  The claims are proved in Proof/Claims.lean over: the specification
  (Proof/Spec.lean), the column algebra and the variance identity (Proof/Algebra.lean), the kernel's accumulators
  point by point (Proof/KerPieces.lean, KerPayloads.lean, KerBlocks.lean, KerInv.lean), the output block read back
  and the result array covered by the rows' last points (Proof/KerCanon.lean, KerFinal.lean), the reference's run and
  its value index by index (Proof/RefRun.lean, RefValue.lean), and finiteness from the precondition
  (Proof/FiniteInputs.lean).
-/
import proofs.«120007_j57707180589696_1_alg».proof.Defs
import proofs.«120007_j57707180589696_1_alg».proof.Proof.Gen.Kernel
import proofs.«120007_j57707180589696_1_alg».proof.Proof.Gen.Kernel.Skeleton
import proofs.«120007_j57707180589696_1_alg».proof.Proof.Gen.Kernel.Launch
import proofs.«120007_j57707180589696_1_alg».proof.Proof.Gen.Kernel.Points
import proofs.«120007_j57707180589696_1_alg».proof.Proof.Gen.Kernel.Frame
import proofs.«120007_j57707180589696_1_alg».proof.Proof.Gen.KernelIdeal
import proofs.«120007_j57707180589696_1_alg».proof.Proof.Gen.KernelIdeal.Skeleton
import proofs.«120007_j57707180589696_1_alg».proof.Proof.Gen.KernelIdeal.Launch
import proofs.«120007_j57707180589696_1_alg».proof.Proof.Gen.KernelIdeal.Points
import proofs.«120007_j57707180589696_1_alg».proof.Proof.Gen.KernelIdeal.Frame
import proofs.«120007_j57707180589696_1_alg».proof.Proof.Gen.ReferenceIdeal
import proofs.«120007_j57707180589696_1_alg».proof.Proof.Gen.Pre_finite_inputs
import proofs.«120007_j57707180589696_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    PoolClaims.frame_k, PoolClaims.frame_ki, PoolClaims.frame_ri, PoolClaims.preserves, PoolClaims.algebraic⟩

end Cert.Proof

end
